-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4x3x112x112 : Shape := ⟨5, ![256, 4, 3, 112, 112]⟩
abbrev S256x4x512 : Shape := ⟨3, ![256, 4, 512]⟩
abbrev S256x4x1 : Shape := ⟨3, ![256, 4, 1]⟩
abbrev S_ : Shape := ⟨0, ![]⟩

class Facts : Prop where
  bcast_S_S256x4x3x112x112 : S_.BroadcastsInDim S256x4x3x112x112 (![] : Fin 0 → Fin S256x4x3x112x112.rank)
  reducesTo_S256x4x3x112x112_S_d0_1_2_3_4 : S256x4x3x112x112.ReducesTo [0, 1, 2, 3, 4] S_
  h_S_ : 0 < S_.numel
  bcast_S_S256x4x512 : S_.BroadcastsInDim S256x4x512 (![] : Fin 0 → Fin S256x4x512.rank)
  reducesTo_S256x4x512_S_d0_1_2 : S256x4x512.ReducesTo [0, 1, 2] S_
  bcast_S_S256x4x1 : S_.BroadcastsInDim S256x4x1 (![] : Fin 0 → Fin S256x4x1.rank)
  reducesTo_S256x4x1_S_d0_1_2 : S256x4x1.ReducesTo [0, 1, 2] S_

variable [Facts]

def fn {F : FTy → Type} [FloatOps F] (main_arg0 : FVec F S256x4x3x112x112 .f32) (main_arg1 : FVec F S256x4x512 .f32) (main_arg2 : FVec F S256x4x1 .f32) : IVec S_ 1 :=
  let main_v0 : FVec F S256x4x3x112x112 .f32 := Host.absf main_arg0
  let main_cst : FVec F S_ .f32 := constant S_ .f32 0x7F800000#32
  let main_v1 : FVec F S256x4x3x112x112 .f32 := broadcastInDim S256x4x3x112x112 ![] bcast_S_S256x4x3x112x112 main_cst
  let main_v2 : IVec S256x4x3x112x112 1 := cmpf .olt main_v0 main_v1
  let main_c : IVec S_ 1 := constantI S_ 1 1#1
  let main_v3 : IVec S_ 1 := (fun x v => Host.reduce IntOp.andi x v reducesTo_S256x4x3x112x112_S_d0_1_2_3_4 h_S_) main_v2 main_c
  let main_v4 : FVec F S256x4x512 .f32 := Host.absf main_arg1
  let main_cst_0 : FVec F S_ .f32 := constant S_ .f32 0x7F800000#32
  let main_v5 : FVec F S256x4x512 .f32 := broadcastInDim S256x4x512 ![] bcast_S_S256x4x512 main_cst_0
  let main_v6 : IVec S256x4x512 1 := cmpf .olt main_v4 main_v5
  let main_c_1 : IVec S_ 1 := constantI S_ 1 1#1
  let main_v7 : IVec S_ 1 := (fun x v => Host.reduce IntOp.andi x v reducesTo_S256x4x512_S_d0_1_2 h_S_) main_v6 main_c_1
  let main_v8 : IVec S_ 1 := andi main_v3 main_v7
  let main_v9 : FVec F S256x4x1 .f32 := Host.absf main_arg2
  let main_cst_2 : FVec F S_ .f32 := constant S_ .f32 0x7F800000#32
  let main_v10 : FVec F S256x4x1 .f32 := broadcastInDim S256x4x1 ![] bcast_S_S256x4x1 main_cst_2
  let main_v11 : IVec S256x4x1 1 := cmpf .olt main_v9 main_v10
  let main_c_3 : IVec S_ 1 := constantI S_ 1 1#1
  let main_v12 : IVec S_ 1 := (fun x v => Host.reduce IntOp.andi x v reducesTo_S256x4x1_S_d0_1_2 h_S_) main_v11 main_c_3
  let main_v13 : IVec S_ 1 := andi main_v8 main_v12
  main_v13
-- ==== Kernel.lean ====
abbrev S256x4x3x112x112 : Shape := ⟨5, ![256, 4, 3, 112, 112]⟩
abbrev S256x4x512 : Shape := ⟨3, ![256, 4, 512]⟩
abbrev S256x4x1 : Shape := ⟨3, ![256, 4, 1]⟩
abbrev S256x3 : Shape := ⟨2, ![256, 3]⟩
abbrev S8x4x3x112x112 : Shape := ⟨5, ![8, 4, 3, 112, 112]⟩
abbrev S8x3 : Shape := ⟨2, ![8, 3]⟩
abbrev S8x3x3x112x112 : Shape := ⟨5, ![8, 3, 3, 112, 112]⟩
abbrev S8x3x3x112 : Shape := ⟨4, ![8, 3, 3, 112]⟩
abbrev S8x3x3 : Shape := ⟨3, ![8, 3, 3]⟩
abbrev S8x1x3x112x112 : Shape := ⟨5, ![8, 1, 3, 112, 112]⟩
abbrev S_ : Shape := ⟨0, ![]⟩
abbrev S256x1x1 : Shape := ⟨3, ![256, 1, 1]⟩
abbrev S256 : Shape := ⟨1, ![256]⟩
abbrev S256x3x512 : Shape := ⟨3, ![256, 3, 512]⟩
abbrev S256x1 : Shape := ⟨2, ![256, 1]⟩

abbrev nBuf : Space → Nat
  | .hbm => 73
  | .vmem => 6
  | .smem => 0
  | _ => 0

abbrev bufTy : (tb : Table) → Fin (tcTables nBuf tb) → BufTy
  | .hbm, ⟨0, _⟩ => ⟨S256x4x3x112x112, .f32⟩
  | .hbm, ⟨1, _⟩ => ⟨S256x4x512, .f32⟩
  | .hbm, ⟨2, _⟩ => ⟨S256x4x1, .f32⟩
  | .hbm, ⟨3, _⟩ => ⟨S256x3, .f32⟩
  | .hbm, ⟨4, _⟩ => ⟨S256x3, .f32⟩
  | .hbm, ⟨5, _⟩ => ⟨S_, .f32⟩
  | .hbm, ⟨6, _⟩ => ⟨S256x3, .f32⟩
  | .hbm, ⟨7, _⟩ => ⟨S256x3, .i1⟩
  | .hbm, ⟨8, _⟩ => ⟨S256x1x1, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .i1⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256x3x512, .f32⟩
  | .hbm, ⟨21, _⟩ => ⟨S256x3x512, .f32⟩
  | .hbm, ⟨22, _⟩ => ⟨S256x3x512, .f32⟩
  | .hbm, ⟨23, _⟩ => ⟨S_, .f32⟩
  | .hbm, ⟨24, _⟩ => ⟨S256x3, .f32⟩
  | .hbm, ⟨25, _⟩ => ⟨S256x3, .f32⟩
  | .hbm, ⟨26, _⟩ => ⟨S_, .f32⟩
  | .hbm, ⟨27, _⟩ => ⟨S256x3, .f32⟩
  | .hbm, ⟨28, _⟩ => ⟨S256x3, .f32⟩
  | .hbm, ⟨29, _⟩ => ⟨S256x3x512, .f32⟩
  | .hbm, ⟨30, _⟩ => ⟨S_, .f32⟩
  | .hbm, ⟨31, _⟩ => ⟨S256x3, .f32⟩
  | .hbm, ⟨32, _⟩ => ⟨S256x3, .f32⟩
  | .hbm, ⟨33, _⟩ => ⟨S_, .f32⟩
  | .hbm, ⟨34, _⟩ => ⟨S256x3, .f32⟩
  | .hbm, ⟨35, _⟩ => ⟨S256x3, .f32⟩
  | .hbm, ⟨36, _⟩ => ⟨S256x3x512, .f32⟩
  | .hbm, ⟨37, _⟩ => ⟨S_, .f32⟩
  | .hbm, ⟨38, _⟩ => ⟨S256x3, .f32⟩
  | .hbm, ⟨39, _⟩ => ⟨S256x3, .f32⟩
  | .hbm, ⟨40, _⟩ => ⟨S256x3, .f32⟩
  | .hbm, ⟨41, _⟩ => ⟨S_, .f32⟩
  | .hbm, ⟨42, _⟩ => ⟨S256x3, .f32⟩
  | .hbm, ⟨43, _⟩ => ⟨S256x3, .f32⟩
  | .hbm, ⟨44, _⟩ => ⟨S256x3, .f32⟩
  | .hbm, ⟨45, _⟩ => ⟨S_, .f32⟩
  | .hbm, ⟨46, _⟩ => ⟨S256x3, .f32⟩
  | .hbm, ⟨47, _⟩ => ⟨S256x3, .f32⟩
  | .hbm, ⟨48, _⟩ => ⟨S_, .f32⟩
  | .hbm, ⟨49, _⟩ => ⟨S256x3, .f32⟩
  | .hbm, ⟨50, _⟩ => ⟨S256x3, .f32⟩
  | .hbm, ⟨51, _⟩ => ⟨S256x1, .f32⟩
  | .hbm, ⟨52, _⟩ => ⟨S256x3, .f32⟩
  | .hbm, ⟨53, _⟩ => ⟨S256x3, .f32⟩
  | .hbm, ⟨54, _⟩ => ⟨S256x1, .i1⟩
  | .hbm, ⟨55, _⟩ => ⟨S256x3, .i1⟩
  | .hbm, ⟨56, _⟩ => ⟨S256x3, .i1⟩
  | .hbm, ⟨57, _⟩ => ⟨S_, .f32⟩
  | .hbm, ⟨58, _⟩ => ⟨S_, .f32⟩
  | .hbm, ⟨59, _⟩ => ⟨S256x3, .f32⟩
  | .hbm, ⟨60, _⟩ => ⟨S256x3, .f32⟩
  | .hbm, ⟨61, _⟩ => ⟨S_, .f32⟩
  | .hbm, ⟨62, _⟩ => ⟨S256, .f32⟩
  | .hbm, ⟨63, _⟩ => ⟨S_, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S8x4x3x112x112, .f32⟩
  | .local _ .vmem, ⟨1, _⟩ => ⟨S8x4x3x112x112, .f32⟩
  | .local _ .vmem, ⟨2, _⟩ => ⟨S8x3, .f32⟩
  | .local _ .vmem, ⟨3, _⟩ => ⟨S8x3, .f32⟩
  | .local _ .vmem, ⟨4, _⟩ => ⟨S8x3, .f32⟩
  | .local _ .vmem, ⟨5, _⟩ => ⟨S8x3, .f32⟩
  | _, _ => ⟨S256x4x3x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_call2_v0 : Ref sig .tc := ⟨.hbm, 58, rfl⟩
abbrev main_call2_v1 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_cst_11 : Ref sig .tc := ⟨.hbm, 63, rfl⟩
abbrev main_call3_v0 : Ref sig .tc := ⟨.hbm, 64, rfl⟩
abbrev main_call3_v1 : Ref sig .tc := ⟨.hbm, 65, rfl⟩
abbrev main_v39 : Ref sig .tc := ⟨.hbm, 66, rfl⟩
abbrev main_cst_12 : Ref sig .tc := ⟨.hbm, 67, rfl⟩
abbrev main_v40 : Ref sig .tc := ⟨.hbm, 68, rfl⟩
abbrev main_cst_13 : Ref sig .tc := ⟨.hbm, 69, rfl⟩
abbrev main_v41 : Ref sig .tc := ⟨.hbm, 70, rfl⟩
abbrev main_cst_14 : Ref sig .tc := ⟨.hbm, 71, rfl⟩
abbrev main_v42 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x4x3x112x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x4x3x112x112_S8x3x3x112x112_0_1_0_0_0 : ∀ a, (![0, 1, 0, 0, 0] : Fin 5 → Nat) a + S8x3x3x112x112.size a ≤ S8x4x3x112x112.size a
  h_S8x3x3x112x112 : 0 < S8x3x3x112x112.numel
  inb_S8x4x3x112x112_S8x3x3x112x112_0_0_0_0_0 : ∀ a, (![0, 0, 0, 0, 0] : Fin 5 → Nat) a + S8x3x3x112x112.size a ≤ S8x4x3x112x112.size a
  reduces_S8x3x3x112x112_S8x3x3x112 : S8x3x3x112x112.Reduces [4] S8x3x3x112
  reduces_S8x3x3x112_S8x3x3 : S8x3x3x112.Reduces [3] S8x3x3
  reduces_S8x3x3_S8x3 : S8x3x3.Reduces [2] S8x3
  inb_S8x3_S8x3_0_0 : ∀ a, (![0, 0] : Fin 2 → Nat) a + S8x3.size a ≤ S8x3.size a
  h_S8x3 : 0 < S8x3.numel
  inb_S8x4x3x112x112_S8x1x3x112x112_0_0_0_0_0 : ∀ a, (![0, 0, 0, 0, 0] : Fin 5 → Nat) a + S8x1x3x112x112.size a ≤ S8x4x3x112x112.size a
  h_S8x1x3x112x112 : 0 < S8x1x3x112x112.numel
  broadcasts_S8x1x3x112x112_S8x3x3x112x112 : S8x1x3x112x112.Broadcasts S8x3x3x112x112
  natLt_1_32 : 1 < 32
  bcast_S_S256x3 : S_.BroadcastsInDim S256x3 (![] : Fin 0 → Fin S256x3.rank)
  slices_S256x4x1_S256x1x1_0_0_0 : S256x4x1.Slices ![0, 0, 0] S256x1x1
  shapeCasts_S256x1x1_S256 : S256x1x1.ShapeCasts S256
  bcast_S_S256 : S_.BroadcastsInDim S256 (![] : Fin 0 → Fin S256.rank)
  slices_S256x4x512_S256x3x512_0_0_0 : S256x4x512.Slices ![0, 0, 0] S256x3x512
  slices_S256x4x512_S256x3x512_0_1_0 : S256x4x512.Slices ![0, 1, 0] S256x3x512
  reducesTo_S256x3x512_S256x3_d2 : S256x3x512.ReducesTo [2] S256x3
  h_S_ : 0 < S_.numel
  bcast_S256_S256x1_0 : S256.BroadcastsInDim S256x1 (![0] : Fin 1 → Fin S256x1.rank)
  bcast_S256x1_S256x3_0_1 : S256x1.BroadcastsInDim S256x3 (![0, 1] : Fin 2 → Fin S256x3.rank)
  reducesTo_S256x3_S256_d1 : S256x3.ReducesTo [1] S256
  reducesTo_S256_S_d0 : S256.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x3x112x112.size a ≤ S256x4x3x112x112.size a
  hwx0_0 : ∀ i : grid0.Coords, EltTy.bits .f32 = 32 ∨ (Rect.block (s := S256x4x3x112x112) S8x4x3x112x112.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3.size a ≤ S256x3.size a
  hwx0_1 : ∀ i : grid0.Coords, EltTy.bits .f32 = 32 ∨ (Rect.block (s := S256x3) S8x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3.size a ≤ S256x3.size a
  hwx0_2 : ∀ i : grid0.Coords, EltTy.bits .f32 = 32 ∨ (Rect.block (s := S256x3) S8x3.size (cc0_transform_2 i) (hinb0_2 i)).WholeWords (EltTy.packing .f32)

variable [Facts₀]

abbrev win0_0 : Pipeline.Window sig grid0 :=
  Pipeline.Window.ofSpec (Memref.whole main_arg0) S8x4x3x112x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x3.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x4x3x112x112 : Shape := ⟨5, ![256, 4, 3, 112, 112]⟩
abbrev S256x4x512 : Shape := ⟨3, ![256, 4, 512]⟩
abbrev S256x4x1 : Shape := ⟨3, ![256, 4, 1]⟩
abbrev S256x1x1 : Shape := ⟨3, ![256, 1, 1]⟩
abbrev S256 : Shape := ⟨1, ![256]⟩
abbrev S_ : Shape := ⟨0, ![]⟩
abbrev S256x3x3x112x112 : Shape := ⟨5, ![256, 3, 3, 112, 112]⟩
abbrev S256x3 : Shape := ⟨2, ![256, 3]⟩
abbrev S256x1x3x112x112 : Shape := ⟨5, ![256, 1, 3, 112, 112]⟩
abbrev S256x3x512 : Shape := ⟨3, ![256, 3, 512]⟩
abbrev S256x1 : Shape := ⟨2, ![256, 1]⟩

abbrev nBuf : Space → Nat
  | .hbm => 84
  | .vmem => 0
  | .smem => 0
  | _ => 0

abbrev bufTy : (tb : Table) → Fin (tcTables nBuf tb) → BufTy
  | .hbm, ⟨0, _⟩ => ⟨S256x4x3x112x112, .f32⟩
  | .hbm, ⟨1, _⟩ => ⟨S256x4x512, .f32⟩
  | .hbm, ⟨2, _⟩ => ⟨S256x4x1, .f32⟩
  | .hbm, ⟨3, _⟩ => ⟨S256x1x1, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S256, .i1⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S256x3x3x112x112, .f32⟩
  | .hbm, ⟨16, _⟩ => ⟨S256x3x3x112x112, .f32⟩
  | .hbm, ⟨17, _⟩ => ⟨S256x3x3x112x112, .f32⟩
  | .hbm, ⟨18, _⟩ => ⟨S256x3x3x112x112, .f32⟩
  | .hbm, ⟨19, _⟩ => ⟨S_, .f32⟩
  | .hbm, ⟨20, _⟩ => ⟨S256x3, .f32⟩
  | .hbm, ⟨21, _⟩ => ⟨S256x3, .f32⟩
  | .hbm, ⟨22, _⟩ => ⟨S_, .f32⟩
  | .hbm, ⟨23, _⟩ => ⟨S256x3, .f32⟩
  | .hbm, ⟨24, _⟩ => ⟨S256x3, .f32⟩
  | .hbm, ⟨25, _⟩ => ⟨S256x3x3x112x112, .f32⟩
  | .hbm, ⟨26, _⟩ => ⟨S256x1x3x112x112, .f32⟩
  | .hbm, ⟨27, _⟩ => ⟨S256x3x3x112x112, .f32⟩
  | .hbm, ⟨28, _⟩ => ⟨S256x3x3x112x112, .i1⟩
  | .hbm, ⟨29, _⟩ => ⟨S_, .i1⟩
  | .hbm, ⟨30, _⟩ => ⟨S256x3, .i1⟩
  | .hbm, ⟨31, _⟩ => ⟨S256x3x512, .f32⟩
  | .hbm, ⟨32, _⟩ => ⟨S256x3x512, .f32⟩
  | .hbm, ⟨33, _⟩ => ⟨S256x3x512, .f32⟩
  | .hbm, ⟨34, _⟩ => ⟨S_, .f32⟩
  | .hbm, ⟨35, _⟩ => ⟨S256x3, .f32⟩
  | .hbm, ⟨36, _⟩ => ⟨S256x3, .f32⟩
  | .hbm, ⟨37, _⟩ => ⟨S_, .f32⟩
  | .hbm, ⟨38, _⟩ => ⟨S256x3, .f32⟩
  | .hbm, ⟨39, _⟩ => ⟨S256x3, .f32⟩
  | .hbm, ⟨40, _⟩ => ⟨S256x3x512, .f32⟩
  | .hbm, ⟨41, _⟩ => ⟨S_, .f32⟩
  | .hbm, ⟨42, _⟩ => ⟨S256x3, .f32⟩
  | .hbm, ⟨43, _⟩ => ⟨S256x3, .f32⟩
  | .hbm, ⟨44, _⟩ => ⟨S_, .f32⟩
  | .hbm, ⟨45, _⟩ => ⟨S256x3, .f32⟩
  | .hbm, ⟨46, _⟩ => ⟨S256x3, .f32⟩
  | .hbm, ⟨47, _⟩ => ⟨S256x3x512, .f32⟩
  | .hbm, ⟨48, _⟩ => ⟨S_, .f32⟩
  | .hbm, ⟨49, _⟩ => ⟨S256x3, .f32⟩
  | .hbm, ⟨50, _⟩ => ⟨S256x3, .f32⟩
  | .hbm, ⟨51, _⟩ => ⟨S256x3, .f32⟩
  | .hbm, ⟨52, _⟩ => ⟨S_, .f32⟩
  | .hbm, ⟨53, _⟩ => ⟨S256x3, .f32⟩
  | .hbm, ⟨54, _⟩ => ⟨S256x3, .f32⟩
  | .hbm, ⟨55, _⟩ => ⟨S256x3, .f32⟩
  | .hbm, ⟨56, _⟩ => ⟨S_, .f32⟩
  | .hbm, ⟨57, _⟩ => ⟨S256x3, .f32⟩
  | .hbm, ⟨58, _⟩ => ⟨S256x3, .f32⟩
  | .hbm, ⟨59, _⟩ => ⟨S_, .f32⟩
  | .hbm, ⟨60, _⟩ => ⟨S256x3, .f32⟩
  | .hbm, ⟨61, _⟩ => ⟨S256x3, .f32⟩
  | .hbm, ⟨62, _⟩ => ⟨S256x1, .f32⟩
  | .hbm, ⟨63, _⟩ => ⟨S256x3, .f32⟩
  | .hbm, ⟨64, _⟩ => ⟨S256x3, .f32⟩
  | .hbm, ⟨65, _⟩ => ⟨S256x1, .i1⟩
  | .hbm, ⟨66, _⟩ => ⟨S256x3, .i1⟩
  | .hbm, ⟨67, _⟩ => ⟨S256x3, .i1⟩
  | .hbm, ⟨68, _⟩ => ⟨S_, .f32⟩
  | .hbm, ⟨69, _⟩ => ⟨S_, .f32⟩
  | .hbm, ⟨70, _⟩ => ⟨S256x3, .f32⟩
  | .hbm, ⟨71, _⟩ => ⟨S256x3, .f32⟩
  | .hbm, ⟨72, _⟩ => ⟨S_, .f32⟩
  | .hbm, ⟨73, _⟩ => ⟨S256, .f32⟩
  | .hbm, ⟨74, _⟩ => ⟨S_, .f32⟩
  | .hbm, ⟨75, _⟩ => ⟨S_, .f32⟩
  | .hbm, ⟨76, _⟩ => ⟨S256, .f32⟩
  | .hbm, ⟨77, _⟩ => ⟨S256, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S256x4x3x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_call1_v0 : Ref sig .tc := ⟨.hbm, 40, rfl⟩
abbrev main_call1_cst : Ref sig .tc := ⟨.hbm, 41, rfl⟩
abbrev main_call1_v1 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_call2_v0 : Ref sig .tc := ⟨.hbm, 69, rfl⟩
abbrev main_call2_v1 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_cst_12 : Ref sig .tc := ⟨.hbm, 74, rfl⟩
abbrev main_call3_v0 : Ref sig .tc := ⟨.hbm, 75, rfl⟩
abbrev main_call3_v1 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_cst_14 : Ref sig .tc := ⟨.hbm, 80, rfl⟩
abbrev main_v51 : Ref sig .tc := ⟨.hbm, 81, rfl⟩
abbrev main_cst_15 : Ref sig .tc := ⟨.hbm, 82, rfl⟩
abbrev main_v52 : Ref sig .tc := ⟨.hbm, 83, rfl⟩

abbrev nD : Nat := 1
abbrev τ : Topo := Topo.v7x

variable {F : FTy → Type} [FloatOps F]

class Facts₀ : Prop where
  slices_S256x4x1_S256x1x1_0_0_0 : S256x4x1.Slices ![0, 0, 0] S256x1x1
  shapeCasts_S256x1x1_S256 : S256x1x1.ShapeCasts S256
  bcast_S_S256 : S_.BroadcastsInDim S256 (![] : Fin 0 → Fin S256.rank)
  slices_S256x4x3x112x112_S256x3x3x112x112_0_1_0_0_0 : S256x4x3x112x112.Slices ![0, 1, 0, 0, 0] S256x3x3x112x112
  slices_S256x4x3x112x112_S256x3x3x112x112_0_0_0_0_0 : S256x4x3x112x112.Slices ![0, 0, 0, 0, 0] S256x3x3x112x112
  reducesTo_S256x3x3x112x112_S256x3_d2_3_4 : S256x3x3x112x112.ReducesTo [2, 3, 4] S256x3
  h_S_ : 0 < S_.numel
  bcast_S_S256x3 : S_.BroadcastsInDim S256x3 (![] : Fin 0 → Fin S256x3.rank)
  slices_S256x4x3x112x112_S256x1x3x112x112_0_0_0_0_0 : S256x4x3x112x112.Slices ![0, 0, 0, 0, 0] S256x1x3x112x112
  bcast_S256x1x3x112x112_S256x3x3x112x112_0_1_2_3_4 : S256x1x3x112x112.BroadcastsInDim S256x3x3x112x112 (![0, 1, 2, 3, 4] : Fin 5 → Fin S256x3x3x112x112.rank)
  slices_S256x4x512_S256x3x512_0_0_0 : S256x4x512.Slices ![0, 0, 0] S256x3x512
  slices_S256x4x512_S256x3x512_0_1_0 : S256x4x512.Slices ![0, 1, 0] S256x3x512
  reducesTo_S256x3x512_S256x3_d2 : S256x3x512.ReducesTo [2] S256x3
  bcast_S256_S256x1_0 : S256.BroadcastsInDim S256x1 (![0] : Fin 1 → Fin S256x1.rank)
  bcast_S256x1_S256x3_0_1 : S256x1.BroadcastsInDim S256x3 (![0, 1] : Fin 2 → Fin S256x3.rank)
  reducesTo_S256x3_S256_d1 : S256x3.ReducesTo [1] S256
  reducesTo_S256_S_d0 : S256.ReducesTo [0] S_

variable [Facts₀]

class Facts : Prop extends Facts₀ where

variable [Facts]
-- ==== Proof.RegionIdeal.lean ====
/-
  The one image-reduction region of @main and the sixty-eight host lines that follow it, as a run.

  @main enters the region at once (no host line precedes it), so the region finds every buffer as launched. The region
  walks 32 points; at point t it is handed rows 8t … 8t+7 of the image array (a block of 8 × 4 × 3 × 112 × 112 words)
  and leaves, in each of its two 8 × 3 output blocks, a function of that block alone: the body reads frames 1‥3 and
  frames 0‥2 (for the squared consecutive-frame distances) and frames 1‥3 against frame 0 repeated (for the
  absolute differences), reduces over channel, height and width, and stores each 8 × 3 result whole. It also loads
  each output block once before storing it; nothing is computed from those loads. The nine stretches of host lines
  after the region read the two result arrays and the other two arguments, write only fresh buffers of their own,
  and so leave every window's array and every argument as the region left it.

  Stated for any float instance: the same text serves the program read at words and read at the extended reals.
-/
import proofs.«173899_j43542378447385_1_alg».proof.Proof.Gen.KernelIdeal.Launch
import proofs.«173899_j43542378447385_1_alg».proof.Proof.Gen.KernelIdeal.Skeleton
import proofs.«173899_j43542378447385_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then nine stretches of host lines -/

/-- The host lines after the region, stretch by stretch (each called function's body is a stretch of its own). -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: no host line runs before it, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps trivial trivial (fun c => by rw [main_chain]; rfl)

/-- The later lines touch only the pipeline's arrays and the buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- And each writes only its own result buffer, which is no array of the pipeline. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- The region finds each argument as launched. -/
theorem V_arg (c : Dev nD) (b : Ref sig .tc) : V m c b = m ((c : Thread nD τ).loc b) := rfl

/-- No line after the region writes argument 1, and no window's array is that buffer's: it ends as launched. -/
theorem kept_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg m c main_arg1

/-- No line after the region writes argument 2, and no window's array is that buffer's: it ends as launched. -/
theorem kept_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg m c main_arg2

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The image window's current staging buffer holds its block at every point, for any proof data whose array is the
    entry contents and whose body leaves the block in place. -/
theorem before_img_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- In a state satisfying the library's post over the contents after the later lines, the three arguments are as
    launched: the image array is the input window's own array, which no write-back touches; the other two bypass the
    region and no later line writes them. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats 0 c).arrAt_in 0 rfl _).trans ((hA c 0).trans (V_arg m c main_arg0))),
   ((h c).2 main_arg1 (Pipeline.mem_restRefs_of main_arg1 (by decide) (by decide))).trans (kept_arg1 m dats c),
   ((h c).2 main_arg2 (Pipeline.mem_restRefs_of main_arg2 (by decide) (by decide))).trans (kept_arg2 m dats c)⟩

/-- So a run to that post is a run after which the three arguments are as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_kept m dats hA r h c) h

/-! ## The body's accesses and what it leaves -/

/-- Frames 1‥3 of the block. -/
abbrev rLater : Rect S8x4x3x112x112 := Rect.unit (s := S8x4x3x112x112) ![0, 1, 0, 0, 0] S8x3x3x112x112.size Gen.inb_S8x4x3x112x112_S8x3x3x112x112_0_1_0_0_0
/-- Frames 0‥2 of the block. -/
abbrev rEarlier : Rect S8x4x3x112x112 := Rect.unit (s := S8x4x3x112x112) ![0, 0, 0, 0, 0] S8x3x3x112x112.size Gen.inb_S8x4x3x112x112_S8x3x3x112x112_0_0_0_0_0
/-- Frame 0 of the block. -/
abbrev rFirst : Rect S8x4x3x112x112 := Rect.unit (s := S8x4x3x112x112) ![0, 0, 0, 0, 0] S8x1x3x112x112.size Gen.inb_S8x4x3x112x112_S8x1x3x112x112_0_0_0_0_0
/-- An output block, whole. -/
abbrev rOut : Rect S8x3 := Rect.unit (s := S8x3) ![0, 0] S8x3.size Gen.inb_S8x3_S8x3_0_0

/-- The distance block after the body, from the image block. -/
def outDist (x0 : Vec F S8x4x3x112x112 .f32) : Vec F S8x3 .f32 :=
  View.canon [⟨rOut, k0_pay1 (View.ld x0 rLater) (View.ld x0 rEarlier)⟩]
/-- The differs-from-frame-0 block after the body, from the image block. -/
def outDiffers (x0 : Vec F S8x4x3x112x112 .f32) : Vec F S8x3 .f32 :=
  View.canon [⟨rOut, k0_pay2 (View.ld x0 rLater) (View.ld x0 rFirst)⟩]

/-- One whole store covers the block. -/
theorem cover_out (p0 : Vec F S8x3 .f32) (y : S8x3.Idx) :
    ∃ pc ∈ ([⟨rOut, p0⟩] : List (View.Piece (Elt F) S8x3 .f32)), y ∈ pc.1.set :=
  View.cover_of_tiled [⟨rOut, p0⟩] S8x3.size (by rfl) y

/-! ## The body's triple -/

set_option maxHeartbeats 4000000 in
/-- The body on whole staging memrefs — the image block at read contents, the outputs at anything — runs to a state
    holding the image block as it was and each output block at its function of the image block. -/
theorem sound_kernel (c : Dev nD) (E : Set ℕ) (i : grid0.Coords)
    (arg1 : Memref sig .tc .vmem S8x4x3x112x112 .f32) (harg1 : arg1.IsWhole)
    (arg2 : Memref sig .tc .vmem S8x3 .f32) (harg2 : arg2.IsWhole)
    (arg3 : Memref sig .tc .vmem S8x3 .f32) (harg3 : arg3.IsWhole)
    (x0 : Vec F S8x4x3x112x112 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (outDist x0)
            ∗ owns (c : Thread nD τ) arg3 fullShare (outDiffers x0)) -∗ K ⟨⟩))
      ⊢ wp frame (wpE (defs₀ (F := F)) Variants.none c none) E (cc0__lipschitz_img_kernel i arg1 harg1 arg2 harg2 arg3 harg3) K := by
  simp only [cc0__lipschitz_img_kernel_eq_skeleton]; unfold cc0__lipschitz_img_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover_out _)
  · iexists _; isplitr
    swap; · iexact H2
    ipureintro
    exact View.read_writes_eq_canon _ _ _ (cover_out _)

/-! ## The pipeline's proof data -/

/-- On core `c`: the arrays as the region finds them; after the body at point `t` the image block in place and each
    output block at its function of the image block; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outDist (iblk m c 0 t)
    | ⟨2, _⟩ => outDiffers (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_img (c : Dev nD) (t : Fin cfg0.N) : (dats m 0 c).after 0 t = iblk m c 0 t := by dsimp only [dats]
theorem after_dist (c : Dev nD) (t : Fin cfg0.N) : (dats m 0 c).after 1 t = outDist (iblk m c 0 t) := by dsimp only [dats]
theorem after_differs (c : Dev nD) (t : Fin cfg0.N) : (dats m 0 c).after 2 t = outDiffers (iblk m c 0 t) := by dsimp only [dats]

theorem before_img (c : Dev nD) (t : Fin cfg0.N) (d) : (dats m 0 c).before 0 t d = iblk m c 0 t :=
  before_img_of m (dats m 0 c) (A_eq m c 0) (after_img m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_img]
  rw [show (dats m 0 c).Φ t.succ = (dats m 0 c).Φ t.castSucc from rfl,
    show (dats m 0 c).owesAt () t.succ = (dats m 0 c).owesAt () t.castSucc from rfl,
    after_img, after_dist, after_differs]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the library computes from the
    proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The program runs, and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Region

end
-- ==== Proof.RegionWords.lean ====
/-
  The one image-reduction region of @main and the sixty-eight host lines that follow it, as a run.

  @main enters the region at once (no host line precedes it), so the region finds every buffer as launched. The region
  walks 32 points; at point t it is handed rows 8t … 8t+7 of the image array (a block of 8 × 4 × 3 × 112 × 112 words)
  and leaves, in each of its two 8 × 3 output blocks, a function of that block alone: the body reads frames 1‥3 and
  frames 0‥2 (for the squared consecutive-frame distances) and frames 1‥3 against frame 0 repeated (for the
  absolute differences), reduces over channel, height and width, and stores each 8 × 3 result whole. It also loads
  each output block once before storing it; nothing is computed from those loads. The nine stretches of host lines
  after the region read the two result arrays and the other two arguments, write only fresh buffers of their own,
  and so leave every window's array and every argument as the region left it.

  Stated for any float instance: the same text serves the program read at words and read at the extended reals.
-/
import proofs.«173899_j43542378447385_1_alg».proof.Proof.Gen.Kernel.Launch
import proofs.«173899_j43542378447385_1_alg».proof.Proof.Gen.Kernel.Skeleton
import proofs.«173899_j43542378447385_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then nine stretches of host lines -/

/-- The host lines after the region, stretch by stretch (each called function's body is a stretch of its own). -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: no host line runs before it, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps trivial trivial (fun c => by rw [main_chain]; rfl)

/-- The later lines touch only the pipeline's arrays and the buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- And each writes only its own result buffer, which is no array of the pipeline. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- The region finds each argument as launched. -/
theorem V_arg (c : Dev nD) (b : Ref sig .tc) : V m c b = m ((c : Thread nD τ).loc b) := rfl

/-- No line after the region writes argument 1, and no window's array is that buffer's: it ends as launched. -/
theorem kept_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg m c main_arg1

/-- No line after the region writes argument 2, and no window's array is that buffer's: it ends as launched. -/
theorem kept_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg m c main_arg2

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The image window's current staging buffer holds its block at every point, for any proof data whose array is the
    entry contents and whose body leaves the block in place. -/
theorem before_img_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- In a state satisfying the library's post over the contents after the later lines, the three arguments are as
    launched: the image array is the input window's own array, which no write-back touches; the other two bypass the
    region and no later line writes them. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats 0 c).arrAt_in 0 rfl _).trans ((hA c 0).trans (V_arg m c main_arg0))),
   ((h c).2 main_arg1 (Pipeline.mem_restRefs_of main_arg1 (by decide) (by decide))).trans (kept_arg1 m dats c),
   ((h c).2 main_arg2 (Pipeline.mem_restRefs_of main_arg2 (by decide) (by decide))).trans (kept_arg2 m dats c)⟩

/-- So a run to that post is a run after which the three arguments are as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => args_kept m dats hA r h c) h

/-! ## The body's accesses and what it leaves -/

/-- Frames 1‥3 of the block. -/
abbrev rLater : Rect S8x4x3x112x112 := Rect.unit (s := S8x4x3x112x112) ![0, 1, 0, 0, 0] S8x3x3x112x112.size Gen.inb_S8x4x3x112x112_S8x3x3x112x112_0_1_0_0_0
/-- Frames 0‥2 of the block. -/
abbrev rEarlier : Rect S8x4x3x112x112 := Rect.unit (s := S8x4x3x112x112) ![0, 0, 0, 0, 0] S8x3x3x112x112.size Gen.inb_S8x4x3x112x112_S8x3x3x112x112_0_0_0_0_0
/-- Frame 0 of the block. -/
abbrev rFirst : Rect S8x4x3x112x112 := Rect.unit (s := S8x4x3x112x112) ![0, 0, 0, 0, 0] S8x1x3x112x112.size Gen.inb_S8x4x3x112x112_S8x1x3x112x112_0_0_0_0_0
/-- An output block, whole. -/
abbrev rOut : Rect S8x3 := Rect.unit (s := S8x3) ![0, 0] S8x3.size Gen.inb_S8x3_S8x3_0_0

/-- The distance block after the body, from the image block. -/
def outDist (x0 : Vec F S8x4x3x112x112 .f32) : Vec F S8x3 .f32 :=
  View.canon [⟨rOut, k0_pay1 (View.ld x0 rLater) (View.ld x0 rEarlier)⟩]
/-- The differs-from-frame-0 block after the body, from the image block. -/
def outDiffers (x0 : Vec F S8x4x3x112x112 .f32) : Vec F S8x3 .f32 :=
  View.canon [⟨rOut, k0_pay2 (View.ld x0 rLater) (View.ld x0 rFirst)⟩]

/-- One whole store covers the block. -/
theorem cover_out (p0 : Vec F S8x3 .f32) (y : S8x3.Idx) :
    ∃ pc ∈ ([⟨rOut, p0⟩] : List (View.Piece (Elt F) S8x3 .f32)), y ∈ pc.1.set :=
  View.cover_of_tiled [⟨rOut, p0⟩] S8x3.size (by rfl) y

/-! ## The body's triple -/

set_option maxHeartbeats 4000000 in
/-- The body on whole staging memrefs — the image block at read contents, the outputs at anything — runs to a state
    holding the image block as it was and each output block at its function of the image block. -/
theorem sound_kernel (c : Dev nD) (E : Set ℕ) (i : grid0.Coords)
    (arg1 : Memref sig .tc .vmem S8x4x3x112x112 .f32) (harg1 : arg1.IsWhole)
    (arg2 : Memref sig .tc .vmem S8x3 .f32) (harg2 : arg2.IsWhole)
    (arg3 : Memref sig .tc .vmem S8x3 .f32) (harg3 : arg3.IsWhole)
    (x0 : Vec F S8x4x3x112x112 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (outDist x0)
            ∗ owns (c : Thread nD τ) arg3 fullShare (outDiffers x0)) -∗ K ⟨⟩))
      ⊢ wp frame (wpE (defs₀ (F := F)) Variants.none c none) E (cc0__lipschitz_img_kernel i arg1 harg1 arg2 harg2 arg3 harg3) K := by
  simp only [cc0__lipschitz_img_kernel_eq_skeleton]; unfold cc0__lipschitz_img_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover_out _)
  · iexists _; isplitr
    swap; · iexact H2
    ipureintro
    exact View.read_writes_eq_canon _ _ _ (cover_out _)

/-! ## The pipeline's proof data -/

/-- On core `c`: the arrays as the region finds them; after the body at point `t` the image block in place and each
    output block at its function of the image block; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outDist (iblk m c 0 t)
    | ⟨2, _⟩ => outDiffers (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_img (c : Dev nD) (t : Fin cfg0.N) : (dats m 0 c).after 0 t = iblk m c 0 t := by dsimp only [dats]
theorem after_dist (c : Dev nD) (t : Fin cfg0.N) : (dats m 0 c).after 1 t = outDist (iblk m c 0 t) := by dsimp only [dats]
theorem after_differs (c : Dev nD) (t : Fin cfg0.N) : (dats m 0 c).after 2 t = outDiffers (iblk m c 0 t) := by dsimp only [dats]

theorem before_img (c : Dev nD) (t : Fin cfg0.N) (d) : (dats m 0 c).before 0 t d = iblk m c 0 t :=
  before_img_of m (dats m 0 c) (A_eq m c 0) (after_img m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_img]
  rw [show (dats m 0 c).Φ t.succ = (dats m 0 c).Φ t.castSucc from rfl,
    show (dats m 0 c).owesAt () t.succ = (dats m 0 c).owesAt () t.castSucc from rfl,
    after_img, after_dist, after_differs]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the library computes from the
    proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The program runs, and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Region

end
-- ==== Proof.Spec.lean ====
/-
  What the image-reduction kernel is meant to compute, index by index, on the extended reals.

  For a batch row b and a frame pair k ∈ {0, 1, 2} of an image array x[b, frame, channel, row, column]:
  * the squared distance between consecutive frames k+1 and k, summed over channel, row and column; its square root
    plus the single-precision constant nearest 1e-10 is the frame distance;
  * the sum over channel, row and column of |x[b, k+1, …] − x[b, 0, …]|, the absolute value read as max(y, −y); the
    kernel stores 1 where that sum is positive and 0 where it is not.
  The number n of batch rows is a parameter: 256 for the whole array, 8 for one block of it. A row's values depend on
  that row alone, which is why a block's values are the array's at the block's rows.
-/
import Idealize.ShloMosaic.PureOps.Ideal
import Idealize.ShloMosaic.Lib.ValueIdx

noncomputable section

namespace Cert.Spec

open Idealize.ShloMosaic Idealize.ShloMosaic.ValueIdx
open scoped BigOperators

/-- An image array of n batch rows at the extended reals: batch row, frame, channel, row, column. -/
abbrev Img (n : Nat) : Type := (⟨5, ![n, 4, 3, 112, 112]⟩ : Shape).Idx → EReal
/-- A per-(batch row, frame pair) array at the extended reals. -/
abbrev Pairs (n : Nat) : Type := (⟨2, ![n, 3]⟩ : Shape).Idx → EReal

variable {n : Nat}

/-- The difference of frames k+1 and k at one pixel. -/
def stepDiff (x : Img n) (b : Fin n) (k : Fin 3) (c : Fin 3) (h : Fin 112) (w : Fin 112) : EReal :=
  x (ix5 b k.succ c h w) - x (ix5 b k.castSucc c h w)

/-- The difference of frame k+1 and frame 0 at one pixel. -/
def firstDiff (x : Img n) (b : Fin n) (k : Fin 3) (c : Fin 3) (h : Fin 112) (w : Fin 112) : EReal :=
  x (ix5 b k.succ c h w) - x (ix5 b (0 : Fin 4) c h w)

/-- The squared distance of frames k+1 and k: channels outermost, columns innermost. -/
def sqDist (x : Img n) (b : Fin n) (k : Fin 3) : EReal :=
  ∑ c : Fin 3, ∑ h : Fin 112, ∑ w : Fin 112, stepDiff x b k c h w * stepDiff x b k c h w

/-- The frame distance: the square root of the squared distance, plus the constant. -/
def dist (x : Img n) (b : Fin n) (k : Fin 3) : EReal :=
  Ideal.sqrt (sqDist x b k) + Ideal.ofBits .f32 0x2EDBE6FF#32

/-- The summed absolute difference of frame k+1 against frame 0. -/
def absDiff (x : Img n) (b : Fin n) (k : Fin 3) : EReal :=
  ∑ c : Fin 3, ∑ h : Fin 112, ∑ w : Fin 112, max (firstDiff x b k c h w) (-(firstDiff x b k c h w))

/-- One where frame k+1 differs from frame 0 in summed absolute value, zero where it does not. -/
def differs01 (x : Img n) (b : Fin n) (k : Fin 3) : EReal :=
  if 0 < absDiff x b k then 1 else 0

/-- The frame distances as an array. -/
def distArr (x : Img n) : Pairs n := fun j => dist x (j 0) (j 1)
/-- The one-or-zero marks as an array. -/
def differsArr (x : Img n) : Pairs n := fun j => differs01 x (j 0) (j 1)

end Cert.Spec

end
-- ==== Proof.BlockValues.lean ====
/-
  One block's two results at the extended reals: what the kernel body stores into each 8 × 3 output block is the
  specification's frame distances, and its one-or-zero marks, of the 8-row image block it was handed.
-/
import proofs.«173899_j43542378447385_1_alg».proof.Proof.RegionIdeal
import proofs.«173899_j43542378447385_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Cert.KernelIdeal.Region
open Idealize.ShloMosaic Idealize.ShloMosaic.TcCoe Idealize.SL.Sem Idealize.ShloMosaic.ValueIdx
open scoped BigOperators

/-! ## A lane sum over one axis, and the three in turn -/

/-- The sum over the last axis (columns) of a rank-5 block, at a rank-4 index. -/
theorem sumCols (v : FVec Ideal S8x3x3x112x112 .f32) (h : S8x3x3x112x112.Reduces [4] S8x3x3x112) (hφ : FKind.Formats .f32)
    (hacc : (0x00000000#32 : BitVec 32) = FKind.add.neutral .f32 hφ) (p : Fin 8) (k : Fin 3) (c : Fin 3) (r : Fin 112) :
    multiReduction (F := Ideal) .add [4] S8x3x3x112 v 0x00000000#32 h hφ hacc (ix4 p k c r) = ∑ w : Fin 112, v (ix5 p k c r w) := by
  refine (Ideal.multiReduction_add_single v _ h hφ hacc (ix4 p k c r)).trans ?_
  refine Finset.sum_congr rfl fun w _ => congrArg v ?_
  funext a
  refine Fin.ext ?_
  match a with
  | ⟨0, _⟩ => rfl
  | ⟨1, _⟩ => rfl
  | ⟨2, _⟩ => rfl
  | ⟨3, _⟩ => rfl
  | ⟨4, _⟩ => rfl

/-- The sum over the last axis (rows) of a rank-4 block, at a rank-3 index. -/
theorem sumRows (v : FVec Ideal S8x3x3x112 .f32) (h : S8x3x3x112.Reduces [3] S8x3x3) (hφ : FKind.Formats .f32)
    (hacc : (0x00000000#32 : BitVec 32) = FKind.add.neutral .f32 hφ) (p : Fin 8) (k : Fin 3) (c : Fin 3) :
    multiReduction (F := Ideal) .add [3] S8x3x3 v 0x00000000#32 h hφ hacc (ix3 p k c) = ∑ r : Fin 112, v (ix4 p k c r) := by
  refine (Ideal.multiReduction_add_single v _ h hφ hacc (ix3 p k c)).trans ?_
  refine Finset.sum_congr rfl fun r _ => congrArg v ?_
  funext a
  refine Fin.ext ?_
  match a with
  | ⟨0, _⟩ => rfl
  | ⟨1, _⟩ => rfl
  | ⟨2, _⟩ => rfl
  | ⟨3, _⟩ => rfl

/-- The sum over the last axis (channels) of a rank-3 block, at a rank-2 index. -/
theorem sumChans (v : FVec Ideal S8x3x3 .f32) (h : S8x3x3.Reduces [2] S8x3) (hφ : FKind.Formats .f32)
    (hacc : (0x00000000#32 : BitVec 32) = FKind.add.neutral .f32 hφ) (p : Fin 8) (k : Fin 3) :
    multiReduction (F := Ideal) .add [2] S8x3 v 0x00000000#32 h hφ hacc (ix2 p k) = ∑ c : Fin 3, v (ix3 p k c) := by
  refine (Ideal.multiReduction_add_single v _ h hφ hacc (ix2 p k)).trans ?_
  refine Finset.sum_congr rfl fun c _ => congrArg v ?_
  funext a
  refine Fin.ext ?_
  match a with
  | ⟨0, _⟩ => rfl
  | ⟨1, _⟩ => rfl
  | ⟨2, _⟩ => rfl

/-- The three lane sums in turn (columns, then rows, then channels) are the triple sum, channels outermost. -/
theorem sumAll (v : FVec Ideal S8x3x3x112x112 .f32) (h4 : S8x3x3x112x112.Reduces [4] S8x3x3x112)
    (h3 : S8x3x3x112.Reduces [3] S8x3x3) (h2 : S8x3x3.Reduces [2] S8x3) (hφ : FKind.Formats .f32)
    (hacc : (0x00000000#32 : BitVec 32) = FKind.add.neutral .f32 hφ) (p : Fin 8) (k : Fin 3) :
    multiReduction (F := Ideal) .add [2] S8x3
        (multiReduction (F := Ideal) .add [3] S8x3x3
          (multiReduction (F := Ideal) .add [4] S8x3x3x112 v 0x00000000#32 h4 hφ hacc) 0x00000000#32 h3 hφ hacc)
        0x00000000#32 h2 hφ hacc (ix2 p k)
      = ∑ c : Fin 3, ∑ r : Fin 112, ∑ w : Fin 112, v (ix5 p k c r w) := by
  refine (sumChans _ h2 hφ hacc p k).trans ?_
  refine Finset.sum_congr rfl fun c _ => ?_
  refine (sumRows _ h3 hφ hacc p k c).trans ?_
  refine Finset.sum_congr rfl fun r _ => ?_
  exact sumCols v h4 hφ hacc p k c r

/-! ## The loads at an index -/

/-- The offsets of the whole-block rectangle of an output block are zero. -/
theorem zerosOut : (![0, 0] : Fin 2 → Nat) = fun _ => 0 :=
  funext fun a => by match a with | ⟨0, _⟩ => rfl | ⟨1, _⟩ => rfl

/-- The load of frames 1‥3 reads, at frame pair k, frame k+1 of the block. -/
theorem ld_later (x0 : Vec Ideal S8x4x3x112x112 .f32) (p : Fin 8) (k : Fin 3) (c : Fin 3) (r w : Fin 112) :
    View.ld x0 rLater (ix5 p k c r w) = x0 (ix5 p k.succ c r w) := by
  refine congrArg x0 (funext fun a => Fin.ext ?_)
  match a with
  | ⟨0, _⟩ => show 0 + 1 * p.val = p.val; omega
  | ⟨1, _⟩ => show 1 + 1 * k.val = k.val + 1; omega
  | ⟨2, _⟩ => show 0 + 1 * c.val = c.val; omega
  | ⟨3, _⟩ => show 0 + 1 * r.val = r.val; omega
  | ⟨4, _⟩ => show 0 + 1 * w.val = w.val; omega

/-- The load of frames 0‥2 reads, at frame pair k, frame k of the block. -/
theorem ld_earlier (x0 : Vec Ideal S8x4x3x112x112 .f32) (p : Fin 8) (k : Fin 3) (c : Fin 3) (r w : Fin 112) :
    View.ld x0 rEarlier (ix5 p k c r w) = x0 (ix5 p k.castSucc c r w) := by
  refine congrArg x0 (funext fun a => Fin.ext ?_)
  match a with
  | ⟨0, _⟩ => show 0 + 1 * p.val = p.val; omega
  | ⟨1, _⟩ => show 0 + 1 * k.val = k.val; omega
  | ⟨2, _⟩ => show 0 + 1 * c.val = c.val; omega
  | ⟨3, _⟩ => show 0 + 1 * r.val = r.val; omega
  | ⟨4, _⟩ => show 0 + 1 * w.val = w.val; omega

/-- The load of frame 0 alone reads frame 0 of the block. -/
theorem ld_first (x0 : Vec Ideal S8x4x3x112x112 .f32) (p : Fin 8) (c : Fin 3) (r w : Fin 112) :
    View.ld x0 rFirst (ix5 p (0 : Fin 1) c r w) = x0 (ix5 p (0 : Fin 4) c r w) := by
  refine congrArg x0 (funext fun a => Fin.ext ?_)
  match a with
  | ⟨0, _⟩ => show 0 + 1 * p.val = p.val; omega
  | ⟨1, _⟩ => rfl
  | ⟨2, _⟩ => show 0 + 1 * c.val = c.val; omega
  | ⟨3, _⟩ => show 0 + 1 * r.val = r.val; omega
  | ⟨4, _⟩ => show 0 + 1 * w.val = w.val; omega

/-- The one-frame block repeated along the frame axis reads, at every frame pair, its one frame. -/
theorem repeat_first (v : Vec Ideal S8x1x3x112x112 .f32) (hb : S8x1x3x112x112.Broadcasts S8x3x3x112x112)
    (p : Fin 8) (k : Fin 3) (c : Fin 3) (r w : Fin 112) :
    broadcastTo S8x3x3x112x112 v hb (ix5 p k c r w) = v (ix5 p (0 : Fin 1) c r w) := by
  refine broadcastTo_apply v hb (ix5 p k c r w) (ix5 p (0 : Fin 1) c r w) fun a => ?_
  match a with
  | ⟨0, _⟩ => rfl
  | ⟨1, _⟩ => rfl
  | ⟨2, _⟩ => rfl
  | ⟨3, _⟩ => rfl
  | ⟨4, _⟩ => rfl

/-! ## The two payloads at an index -/

/-- The distance payload at (p, k): the root of the triple sum of squared differences, plus the constant. -/
theorem pay1_apply (v0 v1 : Vec Ideal S8x3x3x112x112 .f32) (p : Fin 8) (k : Fin 3) :
    k0_pay1 (F := Ideal) v0 v1 (ix2 p k)
      = Ideal.sqrt (∑ c : Fin 3, ∑ r : Fin 112, ∑ w : Fin 112,
          (v0 (ix5 p k c r w) - v1 (ix5 p k c r w)) * (v0 (ix5 p k c r w) - v1 (ix5 p k c r w)))
        + Ideal.ofBits .f32 0x2EDBE6FF#32 := by
  unfold k0_pay1
  refine congrArg (fun z => Ideal.sqrt z + Ideal.ofBits .f32 0x2EDBE6FF#32) ?_
  exact sumAll _ _ _ _ _ _ p k

/-- The comparison "above zero", widened to a word and read as a signed integer, is one or zero. -/
theorem mark_of (s : EReal) :
    ((((Ideal.cmp .ogt s (Ideal.ofBits .f32 0x00000000#32)).setWidth 32).toInt : ℝ) : EReal) = if 0 < s then 1 else 0 := by
  rw [Ideal.ofBits_zero_f32]
  by_cases h : 0 < s
  · have e : Ideal.cmp .ogt s 0 = 1#1 := by
      show BitVec.ofBool (decide (0 < s)) = 1#1
      rw [decide_eq_true h]; rfl
    have e1 : ((1#1 : BitVec 1).setWidth 32).toInt = 1 := by decide
    rw [if_pos h, e, e1, Int.cast_one, EReal.coe_one]
  · have e : Ideal.cmp .ogt s 0 = 0#1 := by
      show BitVec.ofBool (decide (0 < s)) = 0#1
      rw [decide_eq_false h]; rfl
    have e0 : ((0#1 : BitVec 1).setWidth 32).toInt = 0 := by decide
    rw [if_neg h, e, e0, Int.cast_zero, EReal.coe_zero]

/-- The mark payload at (p, k): one where the triple sum of absolute differences against the one frame is above zero. -/
theorem pay2_apply (v11 : Vec Ideal S8x3x3x112x112 .f32) (v12 : Vec Ideal S8x1x3x112x112 .f32) (p : Fin 8) (k : Fin 3) :
    k0_pay2 (F := Ideal) v11 v12 (ix2 p k)
      = if 0 < ∑ c : Fin 3, ∑ r : Fin 112, ∑ w : Fin 112,
            max (v11 (ix5 p k c r w) - v12 (ix5 p (0 : Fin 1) c r w)) (-(v11 (ix5 p k c r w) - v12 (ix5 p (0 : Fin 1) c r w)))
        then 1 else 0 := by
  unfold k0_pay2
  refine (congrArg (fun z => ((((Ideal.cmp .ogt z (Ideal.ofBits .f32 0x00000000#32)).setWidth 32).toInt : ℝ) : EReal))
    ((sumAll _ _ _ _ _ _ p k).trans ?_)).trans (mark_of _)
  refine Finset.sum_congr rfl fun c _ => Finset.sum_congr rfl fun r _ => Finset.sum_congr rfl fun w _ => ?_
  show max (v11 (ix5 p k c r w) - broadcastTo S8x3x3x112x112 v12 _ (ix5 p k c r w))
      (-(v11 (ix5 p k c r w) - broadcastTo S8x3x3x112x112 v12 _ (ix5 p k c r w))) = _
  rw [repeat_first]

/-! ## The two blocks -/

/-- The distance block the body stores is the specification's frame distances of the 8-row image block: the one whole
    store leaves its payload, whose loads read frames k+1 and k. -/
theorem outDist_eq (x0 : Vec Ideal S8x4x3x112x112 .f32) :
    outDist (F := Ideal) x0 = Cert.Spec.distArr (n := 8) x0 := by
  funext j
  obtain ⟨p, k, rfl⟩ : ∃ (p : Fin 8) (k : Fin 3), j = ix2 p k := ⟨j 0, j 1, eq_ix2 j⟩
  unfold outDist
  rw [View.canon_unit_zero (S := S8x3) zerosOut]
  refine (pay1_apply _ _ p k).trans ?_
  show _ = Ideal.sqrt (Cert.Spec.sqDist x0 p k) + Ideal.ofBits .f32 0x2EDBE6FF#32
  refine congrArg (fun z => Ideal.sqrt z + Ideal.ofBits .f32 0x2EDBE6FF#32) ?_
  unfold Cert.Spec.sqDist
  refine Finset.sum_congr rfl fun c _ => Finset.sum_congr rfl fun r _ => Finset.sum_congr rfl fun w _ => ?_
  unfold Cert.Spec.stepDiff
  rw [ld_later, ld_earlier]

/-- The mark block the body stores is the specification's one-or-zero marks of the 8-row image block: the one whole
    store leaves its payload, whose loads read frame k+1 and frame 0. -/
theorem outDiffers_eq (x0 : Vec Ideal S8x4x3x112x112 .f32) :
    outDiffers (F := Ideal) x0 = Cert.Spec.differsArr (n := 8) x0 := by
  funext j
  obtain ⟨p, k, rfl⟩ : ∃ (p : Fin 8) (k : Fin 3), j = ix2 p k := ⟨j 0, j 1, eq_ix2 j⟩
  unfold outDiffers
  rw [View.canon_unit_zero (S := S8x3) zerosOut]
  refine (pay2_apply _ _ p k).trans ?_
  show _ = if 0 < Cert.Spec.absDiff x0 p k then 1 else 0
  refine congrArg (fun z : EReal => if 0 < z then (1 : EReal) else 0) ?_
  unfold Cert.Spec.absDiff
  refine Finset.sum_congr rfl fun c _ => Finset.sum_congr rfl fun r _ => Finset.sum_congr rfl fun w _ => ?_
  unfold Cert.Spec.firstDiff
  rw [ld_later, ld_first]

end Cert.KernelIdeal.Block

end
-- ==== Proof.KernelArrays.lean ====
/-
  What the region leaves in its two result arrays, at the extended reals: the frame distances and the one-or-zero marks
  of the whole image array, row block by row block.
-/
import proofs.«173899_j43542378447385_1_alg».proof.Proof.RegionIdeal
import proofs.«173899_j43542378447385_1_alg».proof.Proof.Spec
import proofs.«173899_j43542378447385_1_alg».proof.Proof.BlockValues
import Idealize.ShloMosaic.Lib.Pipeline.Value
import Idealize.ShloMosaic.Lib.ValueIdx
import Idealize.ShloMosaic.PureOps.Ideal.Laws

noncomputable section

namespace Cert.KernelIdeal.Arrays

open Cert.KernelIdeal Cert.KernelIdeal.Gen Cert.KernelIdeal.Region
open Idealize.ShloMosaic Idealize.ShloMosaic.TcCoe Idealize.SL.Sem Idealize.ShloMosaic.ValueIdx

variable (m : (ℓ : Loc nD τ sig) → Buf (Elt Ideal) ℓ)

/-! ## A batch row's values are that row's own

Both quantities of the specification at batch row b read the image only at indices whose first coordinate is b. So two
images, of any numbers of rows, that agree on one row of each give that row the same frame distance and the same mark. -/

/-- The frame distance of row p of one image is that of row r of another when the two rows hold the same pixels. -/
theorem dist_of_row {n n' : Nat} (x : Cert.Spec.Img n) (xb : Cert.Spec.Img n') (r : Fin n) (p : Fin n')
    (hx : ∀ (f : Fin 4) (ch : Fin 3) (h w : Fin 112), xb (ix5 p f ch h w) = x (ix5 r f ch h w)) (k : Fin 3) :
    Cert.Spec.dist xb p k = Cert.Spec.dist x r k := by
  unfold Cert.Spec.dist Cert.Spec.sqDist Cert.Spec.stepDiff
  simp only [hx]

/-- The one-or-zero mark of row p of one image is that of row r of another when the two rows hold the same pixels. -/
theorem differs01_of_row {n n' : Nat} (x : Cert.Spec.Img n) (xb : Cert.Spec.Img n') (r : Fin n) (p : Fin n')
    (hx : ∀ (f : Fin 4) (ch : Fin 3) (h w : Fin 112), xb (ix5 p f ch h w) = x (ix5 r f ch h w)) (k : Fin 3) :
    Cert.Spec.differs01 xb p k = Cert.Spec.differs01 x r k := by
  unfold Cert.Spec.differs01 Cert.Spec.absDiff Cert.Spec.firstDiff
  simp only [hx]

/-! ## The index maps, over the grid

At point t the image window's block index is (t, 0, 0, 0, 0) and each output window's is (t, 0). -/

theorem idx_img : ∀ t : Fin cfg0.N, win0_0.index t (0 : Fin 5) = t.val ∧ win0_0.index t (1 : Fin 5) = 0
    ∧ win0_0.index t (2 : Fin 5) = 0 ∧ win0_0.index t (3 : Fin 5) = 0 ∧ win0_0.index t (4 : Fin 5) = 0 :=
  (by decide +kernel : ∀ t : Fin grid0.N, _)

theorem idx_dist : ∀ t : Fin cfg0.N, win0_1.index t (0 : Fin 2) = t.val ∧ win0_1.index t (1 : Fin 2) = 0 :=
  (by decide +kernel : ∀ t : Fin grid0.N, _)

theorem idx_differs : ∀ t : Fin cfg0.N, win0_2.index t (0 : Fin 2) = t.val ∧ win0_2.index t (1 : Fin 2) = 0 :=
  (by decide +kernel : ∀ t : Fin grid0.N, _)

/-! ## The image block at a point is eight rows of the image -/

/-- Row p of point t's image block is row 8t + p of the image array, pixel by pixel. -/
theorem iblk_apply (c : Dev nD) (t : Fin cfg0.N) (p : Fin 8) (f : Fin 4) (ch : Fin 3) (h w : Fin 112) (r : Fin 256)
    (hr : r.val = 8 * t.val + p.val) :
    (iblk (F := Ideal) m c 0 t : Vec Ideal S8x4x3x112x112 .f32) (ix5 p f ch h w)
      = (m ((c : Thread nD τ).loc main_arg0) : S256x4x3x112x112.Idx → EReal) (ix5 r f ch h w) := by
  obtain ⟨e0, e1, e2, e3, e4⟩ := idx_img t
  unfold iblk
  rw [View.read_apply]
  show V m c main_arg0 _ = m ((c : Thread nD τ).loc main_arg0) _
  rw [V_arg]
  congr 1
  funext a
  apply Fin.ext
  match a with
  | ⟨0, _⟩ => show win0_0.index t (0 : Fin 5) * 8 + 1 * p.val = r.val; omega
  | ⟨1, _⟩ => show win0_0.index t (1 : Fin 5) * 4 + 1 * f.val = f.val; omega
  | ⟨2, _⟩ => show win0_0.index t (2 : Fin 5) * 3 + 1 * ch.val = ch.val; omega
  | ⟨3, _⟩ => show win0_0.index t (3 : Fin 5) * 112 + 1 * h.val = h.val; omega
  | ⟨4, _⟩ => show win0_0.index t (4 : Fin 5) * 112 + 1 * w.val = w.val; omega

/-- So the frame distance of row p of the block is that of row 8t + p of the image array. -/
theorem dist_blk (c : Dev nD) (t : Fin cfg0.N) (p : Fin 8) (k : Fin 3) (r : Fin 256) (k' : Fin 3)
    (hr : r.val = 8 * t.val + p.val) (hk : k'.val = k.val) :
    Cert.Spec.dist (n := 8) (iblk (F := Ideal) m c 0 t) p k
      = Cert.Spec.dist (n := 256) (m ((c : Thread nD τ).loc main_arg0)) r k' := by
  obtain rfl : k' = k := Fin.ext hk
  exact dist_of_row _ _ r p (fun f ch h w => iblk_apply m c t p f ch h w r hr) k'

/-- And the same of the one-or-zero mark. -/
theorem differs01_blk (c : Dev nD) (t : Fin cfg0.N) (p : Fin 8) (k : Fin 3) (r : Fin 256) (k' : Fin 3)
    (hr : r.val = 8 * t.val + p.val) (hk : k'.val = k.val) :
    Cert.Spec.differs01 (n := 8) (iblk (F := Ideal) m c 0 t) p k
      = Cert.Spec.differs01 (n := 256) (m ((c : Thread nD τ).loc main_arg0)) r k' := by
  obtain rfl : k' = k := Fin.ext hk
  exact differs01_of_row _ _ r p (fun f ch h w => iblk_apply m c t p f ch h w r hr) k'

/-! ## What a point writes back -/

/-- Point t writes back, into the distance array, block t of the specification's distances of the whole image. -/
theorem flushedDist_eq (c : Dev nD) (t : Fin cfg0.N) :
    (dats (F := Ideal) m 0 c).flushed 1 t
      = ((cfg0.win 1).blk t).view.read (Elt Ideal) (Cert.Spec.distArr (n := 256) (m ((c : Thread nD τ).loc main_arg0))) := by
  show (cfg0.win 1).cut (grid0.coords t) ((dats m 0 c).after 1 t) = _
  rw [after_dist, Block.outDist_eq]
  obtain ⟨e0, e1⟩ := idx_dist t
  funext j
  have hj0 : (j 0).val < 8 := (j 0).isLt
  have hj1 : (j 1).val < 3 := (j 1).isLt
  refine dist_blk m c t ⟨(j 0).val, hj0⟩ ⟨(j 1).val, hj1⟩ ((((cfg0.win 1).blk t).view.emb j) 0) ((((cfg0.win 1).blk t).view.emb j) 1) ?_ ?_
  · show win0_1.index t (0 : Fin 2) * 8 + 1 * (j 0).val = 8 * t.val + (j 0).val; omega
  · show win0_1.index t (1 : Fin 2) * 3 + 1 * (j 1).val = (j 1).val; omega

/-- Point t writes back, into the mark array, block t of the specification's marks of the whole image. -/
theorem flushedDiffers_eq (c : Dev nD) (t : Fin cfg0.N) :
    (dats (F := Ideal) m 0 c).flushed 2 t
      = ((cfg0.win 2).blk t).view.read (Elt Ideal) (Cert.Spec.differsArr (n := 256) (m ((c : Thread nD τ).loc main_arg0))) := by
  show (cfg0.win 2).cut (grid0.coords t) ((dats m 0 c).after 2 t) = _
  rw [after_differs, Block.outDiffers_eq]
  obtain ⟨e0, e1⟩ := idx_differs t
  funext j
  have hj0 : (j 0).val < 8 := (j 0).isLt
  have hj1 : (j 1).val < 3 := (j 1).isLt
  refine differs01_blk m c t ⟨(j 0).val, hj0⟩ ⟨(j 1).val, hj1⟩ ((((cfg0.win 2).blk t).view.emb j) 0) ((((cfg0.win 2).blk t).view.emb j) 1) ?_ ?_
  · show win0_2.index t (0 : Fin 2) * 8 + 1 * (j 0).val = 8 * t.val + (j 0).val; omega
  · show win0_2.index t (1 : Fin 2) * 3 + 1 * (j 1).val = (j 1).val; omega

/-! ## The blocks cover the arrays

Row r of either result array lies in the block of point r / 8. -/

/-- An index of the distance array is in point t's block iff each coordinate is in the block's range on its axis. -/
theorem mem_blk_dist (t : Fin cfg0.N) (i : S256x3.Idx) :
    i ∈ ((cfg0.win 1).blk t).view.set ↔ ∀ a : Fin 2, win0_1.index t a * S8x3.size a ≤ (i a).val ∧ (i a).val < win0_1.index t a * S8x3.size a + S8x3.size a := by
  show i ∈ ((View.whole main_v0_0).slice (win0_1.rect t)).set ↔ _
  rw [View.set_slice_whole, Rect.mem_set_unit]
  exact Iff.rfl

/-- An index of the mark array is in point t's block iff each coordinate is in the block's range on its axis. -/
theorem mem_blk_differs (t : Fin cfg0.N) (i : S256x3.Idx) :
    i ∈ ((cfg0.win 2).blk t).view.set ↔ ∀ a : Fin 2, win0_2.index t a * S8x3.size a ≤ (i a).val ∧ (i a).val < win0_2.index t a * S8x3.size a + S8x3.size a := by
  show i ∈ ((View.whole main_v0_1).slice (win0_2.rect t)).set ↔ _
  rw [View.set_slice_whole, Rect.mem_set_unit]
  exact Iff.rfl

/-- Every index of the distance array is in the block of the point its row names. -/
theorem cover_dist (i : S256x3.Idx) : ∃ t : Fin cfg0.N, (cfg0.win 1).flush t = true ∧ i ∈ ((cfg0.win 1).blk t).view.set := by
  have hi0 : (i 0).val < 256 := (i 0).isLt
  have hi1 : (i 1).val < 3 := (i 1).isLt
  have hN : cfg0.N = 32 := N_0
  refine ⟨⟨(i 0).val / 8, by rw [hN]; omega⟩, flush0_1 _, ?_⟩
  rw [mem_blk_dist]
  obtain ⟨e0, e1⟩ := idx_dist ⟨(i 0).val / 8, by rw [hN]; omega⟩
  intro a
  match a with
  | ⟨0, _⟩ =>
    show win0_1.index ⟨(i 0).val / 8, _⟩ (0 : Fin 2) * 8 ≤ (i 0).val ∧ (i 0).val < win0_1.index ⟨(i 0).val / 8, _⟩ (0 : Fin 2) * 8 + 8
    rw [e0]; show (i 0).val / 8 * 8 ≤ (i 0).val ∧ (i 0).val < (i 0).val / 8 * 8 + 8; omega
  | ⟨1, _⟩ =>
    show win0_1.index ⟨(i 0).val / 8, _⟩ (1 : Fin 2) * 3 ≤ (i 1).val ∧ (i 1).val < win0_1.index ⟨(i 0).val / 8, _⟩ (1 : Fin 2) * 3 + 3
    rw [e1]; omega

/-- Every index of the mark array is in the block of the point its row names. -/
theorem cover_differs (i : S256x3.Idx) : ∃ t : Fin cfg0.N, (cfg0.win 2).flush t = true ∧ i ∈ ((cfg0.win 2).blk t).view.set := by
  have hi0 : (i 0).val < 256 := (i 0).isLt
  have hi1 : (i 1).val < 3 := (i 1).isLt
  have hN : cfg0.N = 32 := N_0
  refine ⟨⟨(i 0).val / 8, by rw [hN]; omega⟩, flush0_2 _, ?_⟩
  rw [mem_blk_differs]
  obtain ⟨e0, e1⟩ := idx_differs ⟨(i 0).val / 8, by rw [hN]; omega⟩
  intro a
  match a with
  | ⟨0, _⟩ =>
    show win0_2.index ⟨(i 0).val / 8, _⟩ (0 : Fin 2) * 8 ≤ (i 0).val ∧ (i 0).val < win0_2.index ⟨(i 0).val / 8, _⟩ (0 : Fin 2) * 8 + 8
    rw [e0]; show (i 0).val / 8 * 8 ≤ (i 0).val ∧ (i 0).val < (i 0).val / 8 * 8 + 8; omega
  | ⟨1, _⟩ =>
    show win0_2.index ⟨(i 0).val / 8, _⟩ (1 : Fin 2) * 3 ≤ (i 1).val ∧ (i 1).val < win0_2.index ⟨(i 0).val / 8, _⟩ (1 : Fin 2) * 3 + 3
    rw [e1]; omega

/-! ## The two arrays after the run -/

theorem arr_dist (c : Dev nD) :
    (dats (F := Ideal) m 0 c).arrAt 1 cfg0.N = Cert.Spec.distArr (n := 256) (m ((c : Thread nD τ).loc main_arg0)) :=
  (dats (F := Ideal) m 0 c).arrAt_eq_of_cover 1 _ (fun t _ => flushedDist_eq m c t) cover_dist

theorem arr_differs (c : Dev nD) :
    (dats (F := Ideal) m 0 c).arrAt 2 cfg0.N = Cert.Spec.differsArr (n := 256) (m ((c : Thread nD τ).loc main_arg0)) :=
  (dats (F := Ideal) m 0 c).arrAt_eq_of_cover 2 _ (fun t _ => flushedDiffers_eq m c t) cover_differs

end Cert.KernelIdeal.Arrays

end
-- ==== Proof.Tail.lean ====
/-
  The host lines both programs share, as two functions of what goes into them.

  After the image reductions both programs do the same arithmetic: from the frame distances, the mask of frame
  pairs whose later frame differs from frame 0, the features and the feature norms they compute the mean penalty (a
  scalar) and the adaptive weights (one per batch row). Written over the kernel program's shape names; the reference's
  are abbreviations of the same shapes.
-/
import proofs.«173899_j43542378447385_1_alg».proof.Proof.Gen.KernelIdeal

noncomputable section

namespace Cert.Tail

open Cert.KernelIdeal Idealize.ShloMosaic Idealize.SL.Sem

variable {F : FTy → Type} [FloatOps F]

/-- The constant one half at every (batch row, frame pair): what the kernel's one-or-zero marks are compared against. -/
def half : (⟨S256x3, .f32⟩ : BufTy).Contents (Elt F) :=
  broadcastInDim S256x3 ![] Gen.bcast_S_S256x3 (constant S_ .f32 0x3F000000#32)

/-- The mask of marks above one half. -/
def aboveHalf (marks : (⟨S256x3, .f32⟩ : BufTy).Contents (Elt F)) : (⟨S256x3, .i1⟩ : BufTy).Contents (Elt F) :=
  (cmpf .ogt : (⟨S256x3, .f32⟩ : BufTy).Contents (Elt F) → (⟨S256x3, .f32⟩ : BufTy).Contents (Elt F) → (⟨S256x3, .i1⟩ : BufTy).Contents (Elt F)) marks half

/-- The mean penalty from the frame distances, the differs mask, the features and the feature norms. -/
def penalty (dist : (⟨S256x3, .f32⟩ : BufTy).Contents (Elt F)) (neq : (⟨S256x3, .i1⟩ : BufTy).Contents (Elt F))
    (feat : (⟨S256x4x512, .f32⟩ : BufTy).Contents (Elt F)) (fn : (⟨S256x4x1, .f32⟩ : BufTy).Contents (Elt F)) :
    (⟨S_, .f32⟩ : BufTy).Contents (Elt F) :=
  -- the norm of each batch row's frame-0 feature, as a vector over the batch rows
  let fn0 : (⟨S256, .f32⟩ : BufTy).Contents (Elt F) :=
    shapeCast _ (extractStridedSlice S256x1x1 ![0, 0, 0] fn Gen.slices_S256x4x1_S256x1x1_0_0_0) Gen.shapeCasts_S256x1x1_S256
  -- the batch rows whose norm is above (negative) zero
  let pos : (⟨S256, .i1⟩ : BufTy).Contents (Elt F) :=
    cmpf .ogt fn0 (broadcastInDim S256 ![] Gen.bcast_S_S256 (constant S_ .f32 0x80000000#32))
  -- the adaptive weight 1 / (exp fn0 + 1e-10) of each batch row
  let w : (⟨S256, .f32⟩ : BufTy).Contents (Elt F) :=
    Host.divf (broadcastInDim S256 ![] Gen.bcast_S_S256 (constant S_ .f32 0x3F800000#32))
      (addf (Host.exp fn0) (broadcastInDim S256 ![] Gen.bcast_S_S256 (constant S_ .f32 0x2EDBE6FF#32)))
  -- the features of frames 0, 1, 2 and of frames 1, 2, 3: the two ends of each frame pair
  let a : (⟨S256x3x512, .f32⟩ : BufTy).Contents (Elt F) :=
    extractStridedSlice S256x3x512 ![0, 0, 0] feat Gen.slices_S256x4x512_S256x3x512_0_0_0
  let b : (⟨S256x3x512, .f32⟩ : BufTy).Contents (Elt F) :=
    extractStridedSlice S256x3x512 ![0, 1, 0] feat Gen.slices_S256x4x512_S256x3x512_0_1_0
  -- their Euclidean norms over the 512 feature coordinates, each kept at least 1e-8
  let na : (⟨S256x3, .f32⟩ : BufTy).Contents (Elt F) :=
    maximumf (Host.sqrt (Host.reduceAdd (mulf a a) (constant S_ .f32 0x00000000#32) Gen.reducesTo_S256x3x512_S256x3_d2 Gen.h_S_))
      (broadcastInDim S256x3 ![] Gen.bcast_S_S256x3 (constant S_ .f32 0x322BCC77#32))
  let nb : (⟨S256x3, .f32⟩ : BufTy).Contents (Elt F) :=
    maximumf (Host.sqrt (Host.reduceAdd (mulf b b) (constant S_ .f32 0x00000000#32) Gen.reducesTo_S256x3x512_S256x3_d2 Gen.h_S_))
      (broadcastInDim S256x3 ![] Gen.bcast_S_S256x3 (constant S_ .f32 0x322BCC77#32))
  -- the cosine of the angle between the two ends: their inner product over the product of the norms
  let cosine : (⟨S256x3, .f32⟩ : BufTy).Contents (Elt F) :=
    Host.divf (Host.reduceAdd (mulf a b) (constant S_ .f32 0x00000000#32) Gen.reducesTo_S256x3x512_S256x3_d2 Gen.h_S_) (mulf na nb)
  -- (1 - cosine) per unit of frame distance, less a zero margin, kept at least zero
  let rate : (⟨S256x3, .f32⟩ : BufTy).Contents (Elt F) :=
    maximumf
      (subf (Host.divf (subf (broadcastInDim S256x3 ![] Gen.bcast_S_S256x3 (constant S_ .f32 0x3F800000#32)) cosine) dist)
        (broadcastInDim S256x3 ![] Gen.bcast_S_S256x3 (constant S_ .f32 0x00000000#32)))
      (broadcastInDim S256x3 ![] Gen.bcast_S_S256x3 (constant S_ .f32 0x00000000#32))
  -- each frame pair's rate times its batch row's weight
  let weighted : (⟨S256x3, .f32⟩ : BufTy).Contents (Elt F) :=
    mulf rate (broadcastInDim S256x3 ![0, 1] Gen.bcast_S256x1_S256x3_0_1 (broadcastInDim S256x1 ![0] Gen.bcast_S256_S256x1_0 w))
  -- the frame pairs that count: the batch row's norm is positive and the later frame differs from frame 0
  let counted : (⟨S256x3, .i1⟩ : BufTy).Contents (Elt F) :=
    andi (broadcastInDim S256x3 ![0, 1] Gen.bcast_S256x1_S256x3_0_1 (broadcastInDim S256x1 ![0] Gen.bcast_S256_S256x1_0 pos)) neq
  -- zero at the frame pairs that do not count
  let kept : (⟨S256x3, .f32⟩ : BufTy).Contents (Elt F) :=
    select counted weighted (broadcastInDim S256x3 ![] Gen.bcast_S_S256x3 (id (constant S_ .f32 0x00000000#32)))
  -- summed over the three frame pairs, then over the 256 batch rows
  let rows : (⟨S256, .f32⟩ : BufTy).Contents (Elt F) :=
    Host.reduceAdd kept (constant S_ .f32 0x00000000#32) Gen.reducesTo_S256x3_S256_d1 Gen.h_S_
  let total : (⟨S_, .f32⟩ : BufTy).Contents (Elt F) :=
    Host.reduceAdd rows (constant S_ .f32 0x00000000#32) Gen.reducesTo_S256_S_d0 Gen.h_S_
  -- one times the mean over the 256 batch rows
  mulf (constant S_ .f32 0x3F800000#32) (Host.divf total (constant S_ .f32 0x43800000#32))

/-- The adaptive weights from the feature norms. -/
def weights (fn : (⟨S256x4x1, .f32⟩ : BufTy).Contents (Elt F)) : (⟨S256, .f32⟩ : BufTy).Contents (Elt F) :=
  -- the norm of each batch row's frame-0 feature, as a vector over the batch rows
  let fn0 : (⟨S256, .f32⟩ : BufTy).Contents (Elt F) :=
    shapeCast _ (extractStridedSlice S256x1x1 ![0, 0, 0] fn Gen.slices_S256x4x1_S256x1x1_0_0_0) Gen.shapeCasts_S256x1x1_S256
  -- 1 / (exp fn0 + 1e-10) where the norm is above (negative) zero, zero elsewhere
  select
    (cmpf .ogt fn0 (broadcastInDim S256 ![] Gen.bcast_S_S256 (constant S_ .f32 0x80000000#32)) : (⟨S256, .i1⟩ : BufTy).Contents (Elt F))
    (Host.divf (broadcastInDim S256 ![] Gen.bcast_S_S256 (constant S_ .f32 0x3F800000#32))
      (addf (Host.exp fn0) (broadcastInDim S256 ![] Gen.bcast_S_S256 (constant S_ .f32 0x2EDBE6FF#32))) : (⟨S256, .f32⟩ : BufTy).Contents (Elt F))
    (broadcastInDim S256 ![] Gen.bcast_S_S256 (id (constant S_ .f32 0x00000000#32)))

end Cert.Tail

end
-- ==== Proof.TailKernel.lean ====
/-
  The kernel program's two results are the shared host arithmetic applied to what its region leaves.
-/
import proofs.«173899_j43542378447385_1_alg».proof.Proof.RegionIdeal
import proofs.«173899_j43542378447385_1_alg».proof.Proof.Tail
import Idealize.ShloMosaic.Lib.StableHlo.Run

noncomputable section

namespace Cert.KernelIdeal.TailRun

open Cert.KernelIdeal Cert.KernelIdeal.Gen Cert.KernelIdeal.Region
open Idealize.ShloMosaic Idealize.ShloMosaic.TcCoe Idealize.SL.Sem

variable {F : FTy → Type} [FloatOps F]
variable (m : (ℓ : Loc nD τ sig) → Buf (Elt F) ℓ)

/-- The first result after the later lines: the mean penalty of the region's two arrays, the distance array as it is
    and the marks compared against one half. -/
theorem tail_penalty (c : Dev nD) :
    Pipeline.afterTail₀ cfgs (dats m) 0 (V0 m) tailOps c main_v42
      = Cert.Tail.penalty ((dats m 0 c).arrAt 1 cfg0.N) (Cert.Tail.aboveHalf ((dats m 0 c).arrAt 2 cfg0.N))
          (m ((c : Thread nD τ).loc main_arg1)) (m ((c : Thread nD τ).loc main_arg2)) := by
  -- the later lines as one list, each line's result read off as its function of its operands' contents
  unfold Pipeline.afterTail₀
  simp only [tailOps, hostOps1, hostOps1_1, hostOps1_2, hostOps1_3, hostOps1_4, hostOps1_5, hostOps1_6, hostOps1_7, hostOps1_8,
    List.flatten_cons, List.flatten_nil, List.append_nil, List.cons_append, List.nil_append]
  after_results_simp
  -- what the region leaves: window 1's array is the distance buffer, window 2's the marks buffer; the two arguments are
  -- no window's array, so they hold what was launched
  rw [Pipeline.withArrays_arr spec0 launch0.win.arr_inj c _ _ 1, Pipeline.withArrays_arr spec0 launch0.win.arr_inj c _ _ 2,
    Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2))]
  rfl

/-- The second result after the later lines: the adaptive weights of the feature norms. -/
theorem tail_weights (c : Dev nD) :
    Pipeline.afterTail₀ cfgs (dats m) 0 (V0 m) tailOps c main_v39
      = Cert.Tail.weights (m ((c : Thread nD τ).loc main_arg2)) := by
  unfold Pipeline.afterTail₀
  simp only [tailOps, hostOps1, hostOps1_1, hostOps1_2, hostOps1_3, hostOps1_4, hostOps1_5, hostOps1_6, hostOps1_7, hostOps1_8,
    List.flatten_cons, List.flatten_nil, List.append_nil, List.cons_append, List.nil_append]
  after_results_simp
  -- the feature norms are no window's array: they hold what was launched
  rw [Pipeline.withArrays_of_ne _ c (V0 m c) _ main_arg2 (by exact (by decide : ∀ w, Pipeline.arrRef spec0 w ≠ main_arg2))]
  rfl

end Cert.KernelIdeal.TailRun

end
-- ==== Proof.TailRef.lean ====
/-
  The reference's two results are the same shared host arithmetic applied to its own frame distances and differs mask.
-/
import proofs.«173899_j43542378447385_1_alg».proof.Proof.Gen.ReferenceIdeal.Read
import proofs.«173899_j43542378447385_1_alg».proof.Proof.Tail

noncomputable section

namespace Cert.ReferenceIdeal.TailRead

open Cert.ReferenceIdeal Cert.ReferenceIdeal.Read Idealize.ShloMosaic Idealize.SL.Sem

variable {F : FTy → Type} [FloatOps F]

/-- The reference's first result is the shared mean penalty of its own frame distances and differs mask. -/
theorem ref_penalty (x0 : (⟨S256x4x3x112x112, .f32⟩ : BufTy).Contents (Elt F)) (x1 : (⟨S256x4x512, .f32⟩ : BufTy).Contents (Elt F))
    (x2 : (⟨S256x4x1, .f32⟩ : BufTy).Contents (Elt F)) :
    val_main_v52 (F := F) x0 x1 x2 = Cert.Tail.penalty (val_main_v16 x0) (val_main_v21 x0) x1 x2 := by
  -- the reference's stages from the mean penalty down to the frame distances, the differs mask and the two arguments
  simp only [val_main_v52, val_main_cst_15, val_main_v51, val_main_cst_14, val_main_v50, val_main_cst_13, val_main_v48, val_main_cst_11,
    val_main_v47, val_main_call2_v1, val_main_call2_v0, val_main_cst_10, val_main_v46, val_main_v45, val_main_v44,
    val_main_v3, val_main_v2, val_main_cst, val_main_v1, val_main_v0,
    val_main_v43, val_main_v42, val_main_v41, val_main_v8, val_main_v7, val_main_cst_1, val_main_v6, val_main_v5, val_main_cst_0, val_main_v4,
    val_main_v40, val_main_v39, val_main_cst_9, val_main_v38, val_main_v37, val_main_cst_8, val_main_v36, val_main_v35, val_main_v34, val_main_cst_7,
    val_main_v33, val_main_v32, val_main_v31, val_main_cst_6, val_main_v30, val_main_v29, val_main_v28, val_main_cst_5, val_main_v27,
    val_main_call1_v1, val_main_call1_cst, val_main_call1_v0, val_main_v26, val_main_v25, val_main_cst_4, val_main_v24,
    val_main_call0_v1, val_main_call0_cst, val_main_call0_v0, val_main_v23, val_main_v22]
  -- the same composition, operation by operation, as the shared function's body
  rfl

/-- The reference's second result is the shared adaptive weights of the feature norms. -/
theorem ref_weights (x2 : (⟨S256x4x1, .f32⟩ : BufTy).Contents (Elt F)) :
    val_main_v49 (F := F) x2 = Cert.Tail.weights x2 := by
  -- the reference's stages from the weights down to the feature norms
  simp only [val_main_v49, val_main_v3, val_main_v2, val_main_cst, val_main_v1, val_main_v0, val_main_v8, val_main_v7,
    val_main_cst_1, val_main_v6, val_main_v5, val_main_cst_0, val_main_v4, val_main_call3_v1, val_main_call3_v0, val_main_cst_12]
  rfl

end Cert.ReferenceIdeal.TailRead

end
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.RefImage.lean ====
/-
  The reference's image reductions, at the extended reals: its frame distances are the specification's, and over a
  finite image its differs mask is the specification's marks compared against one half.
-/
import proofs.«173899_j43542378447385_1_alg».proof.Proof.Gen.ReferenceIdeal.Read
import proofs.«173899_j43542378447385_1_alg».proof.Proof.Spec
import proofs.«173899_j43542378447385_1_alg».proof.Proof.Tail
import proofs.«173899_j43542378447385_1_alg».proof.Proof.LibCoe
import Idealize.ShloMosaic.Lib.ValueIdx
import Idealize.ShloMosaic.PureOps.Ideal.Laws
import Idealize.ShloMosaic.Lib.Pipeline.Value
import Mathlib.Algebra.Order.BigOperators.Group.Finset
import Mathlib.Data.Finset.Fold

noncomputable section

namespace Cert.ReferenceIdeal.Image

open Cert.ReferenceIdeal Cert.ReferenceIdeal.Read Idealize.ShloMosaic Idealize.SL.Sem Idealize.ShloMosaic.ValueIdx
open scoped BigOperators

/-! ### The fibre of the three-axis drop

Dropping the channel, row and column coordinates of an index (b, k, c, r, w) of the sliced image leaves (b, k). The
indices over a given (b, k) are therefore exactly the (b, k, c, r, w) with c, r, w free: a copy of
`Fin 3 × Fin 112 × Fin 112`. -/

/-- The dropped index keeps the batch row. -/
theorem drop_val0 (h : S256x3x3x112x112.ReducesTo [2, 3, 4] S256x3) (i : S256x3x3x112x112.Idx) :
    (h.drop i 0).val = (i 0).val := Shape.ReducesTo.drop_apply_val_of_eq h i 0 0

/-- The dropped index keeps the frame pair. -/
theorem drop_val1 (h : S256x3x3x112x112.ReducesTo [2, 3, 4] S256x3) (i : S256x3x3x112x112.Idx) :
    (h.drop i 1).val = (i 1).val := Shape.ReducesTo.drop_apply_val_of_eq h i 1 1

/-- An index drops to (b, k) exactly when its first two coordinates are b and k. -/
theorem drop_eq_ix2_iff (h : S256x3x3x112x112.ReducesTo [2, 3, 4] S256x3) (i : S256x3x3x112x112.Idx)
    (b : Fin 256) (k : Fin 3) : h.drop i = ix2 b k ↔ (i 0).val = b.val ∧ (i 1).val = k.val := by
  constructor
  · intro e
    refine ⟨?_, ?_⟩
    · rw [← drop_val0 h i, e]
    · rw [← drop_val1 h i, e]
  · rintro ⟨e0, e1⟩
    funext a
    match a with
    | ⟨0, _⟩ => exact Fin.ext ((drop_val0 h i).trans e0)
    | ⟨1, _⟩ => exact Fin.ext ((drop_val1 h i).trans e1)

/-- The last three coordinates of an index, as a triple. -/
def tail3 (i : S256x3x3x112x112.Idx) : Fin 3 × Fin 112 × Fin 112 :=
  (⟨(i 2).val, (i 2).isLt⟩, ⟨(i 3).val, (i 3).isLt⟩, ⟨(i 4).val, (i 4).isLt⟩)

/-- The index (b, k, c, r, w) from (b, k) and a triple (c, r, w). -/
def over (b : Fin 256) (k : Fin 3) (p : Fin 3 × Fin 112 × Fin 112) : S256x3x3x112x112.Idx :=
  ix5 b k p.1 p.2.1 p.2.2

/-- The index (b, k, c, r, w) drops to (b, k). -/
theorem over_drop (h : S256x3x3x112x112.ReducesTo [2, 3, 4] S256x3) (b : Fin 256) (k : Fin 3)
    (p : Fin 3 × Fin 112 × Fin 112) : h.drop (over b k p) = ix2 b k :=
  (drop_eq_ix2_iff h _ b k).2 ⟨rfl, rfl⟩

/-- The triple of (b, k, c, r, w) is (c, r, w). -/
theorem tail3_over (b : Fin 256) (k : Fin 3) (p : Fin 3 × Fin 112 × Fin 112) : tail3 (over b k p) = p := rfl

/-- An index that drops to (b, k) is (b, k) followed by its own triple. -/
theorem over_tail3 (h : S256x3x3x112x112.ReducesTo [2, 3, 4] S256x3) (b : Fin 256) (k : Fin 3)
    (i : S256x3x3x112x112.Idx) (hi : h.drop i = ix2 b k) : over b k (tail3 i) = i := by
  obtain ⟨e0, e1⟩ := (drop_eq_ix2_iff h i b k).1 hi
  funext a
  match a with
  | ⟨0, _⟩ => exact Fin.ext e0.symm
  | ⟨1, _⟩ => exact Fin.ext e1.symm
  | ⟨2, _⟩ => rfl
  | ⟨3, _⟩ => rfl
  | ⟨4, _⟩ => rfl

/-- A sum over the indices that drop to (b, k) is the triple sum over channel, row and column. -/
theorem sum_fibre {M : Type*} [AddCommMonoid M] (h : S256x3x3x112x112.ReducesTo [2, 3, 4] S256x3)
    (x : S256x3x3x112x112.Idx → M) (b : Fin 256) (k : Fin 3) :
    ∑ i ∈ Finset.univ.filter (fun i => h.drop i = ix2 b k), x i
      = ∑ c : Fin 3, ∑ r : Fin 112, ∑ w : Fin 112, x (ix5 b k c r w) := by
  have e : ∑ c : Fin 3, ∑ r : Fin 112, ∑ w : Fin 112, x (ix5 b k c r w)
      = ∑ p : Fin 3 × Fin 112 × Fin 112, x (over b k p) := by
    rw [Fintype.sum_prod_type]
    refine Finset.sum_congr rfl fun c _ => ?_
    rw [Fintype.sum_prod_type]
    rfl
  rw [e]
  refine Finset.sum_nbij' tail3 (over b k) ?_ ?_ ?_ ?_ ?_
  · intro i _; exact Finset.mem_univ _
  · intro p _; exact Finset.mem_filter.2 ⟨Finset.mem_univ _, over_drop h b k p⟩
  · intro i hi; exact over_tail3 h b k i (Finset.mem_filter.1 hi).2
  · intro p _; exact tail3_over b k p
  · intro i hi; rw [over_tail3 h b k i (Finset.mem_filter.1 hi).2]

/-- The reference's three-axis sum at (b, k): the initial value plus the triple sum over channel, row and column. -/
theorem hostReduceAdd_fibre (h : S256x3x3x112x112.ReducesTo [2, 3, 4] S256x3) (x : S256x3x3x112x112.Idx → EReal)
    (init : EReal) (b : Fin 256) (k : Fin 3) :
    Ideal.hostReduceAdd h x init (ix2 b k) = init + ∑ c : Fin 3, ∑ r : Fin 112, ∑ w : Fin 112, x (ix5 b k c r w) := by
  unfold Ideal.hostReduceAdd
  rw [sum_fibre h x b k]

/-! ### The slices' indices at (b, k, c, r, w) -/

/-- The slice of frames 1..3 reads frame k+1. -/
theorem idx_v9_ix5 (b : Fin 256) (k c : Fin 3) (r w : Fin 112) :
    idx_main_v9 (ix5 b k c r w) = ix5 b k.succ c r w := by
  funext a
  match a with
  | ⟨0, _⟩ => rfl
  | ⟨1, _⟩ => exact Fin.ext (by show 1 + k.val = k.val + 1; omega)
  | ⟨2, _⟩ => rfl
  | ⟨3, _⟩ => rfl
  | ⟨4, _⟩ => rfl

/-- The slice of frames 0..2 reads frame k. -/
theorem idx_v10_ix5 (b : Fin 256) (k c : Fin 3) (r w : Fin 112) :
    idx_main_v10 (ix5 b k c r w) = ix5 b k.castSucc c r w := by
  funext a
  match a with
  | ⟨0, _⟩ => rfl
  | ⟨1, _⟩ => rfl
  | ⟨2, _⟩ => rfl
  | ⟨3, _⟩ => rfl
  | ⟨4, _⟩ => rfl

/-- The squared difference of consecutive frames at one pixel. -/
theorem v12_ix5 (x0 : Cert.Spec.Img 256) (b : Fin 256) (k c : Fin 3) (r w : Fin 112) :
    val_main_v12 (F := Ideal) x0 (ix5 b k c r w)
      = Cert.Spec.stepDiff x0 b k c r w * Cert.Spec.stepDiff x0 b k c r w := by
  rw [val_main_v12_apply, val_main_v11_apply, val_main_v9_apply, val_main_v10_apply, idx_v9_ix5, idx_v10_ix5]
  rfl

/-- The reference's three-axis sum of squares at (b, k) is the specification's squared distance. -/
theorem v13_ix2 (x0 : Cert.Spec.Img 256) (b : Fin 256) (k : Fin 3) :
    val_main_v13 (F := Ideal) x0 (ix2 b k) = Cert.Spec.sqDist x0 b k := by
  unfold val_main_v13
  simp only [Host.reduceAdd, Ideal.hostReduceAdd_def]
  rw [hostReduceAdd_fibre, val_main_cst_2_apply]
  show Ideal.ofBits .f32 0x00000000#32 + _ = _
  rw [Ideal.ofBits_zero_f32, zero_add]
  unfold Cert.Spec.sqDist
  refine Finset.sum_congr rfl fun c _ => Finset.sum_congr rfl fun r _ => Finset.sum_congr rfl fun w _ => ?_
  exact v12_ix5 x0 b k c r w

theorem dist_ref (x0 : Cert.Spec.Img 256) : val_main_v16 (F := Ideal) x0 = Cert.Spec.distArr x0 := by
  funext j
  obtain ⟨b, k, rfl⟩ : ∃ b k, j = ix2 b k := ⟨j 0, j 1, eq_ix2 j⟩
  rw [val_main_v16_apply, val_main_v15_apply, val_main_cst_3_apply, val_main_v14_apply, v13_ix2]
  rfl

/-! ### One-bit words and an OR-fold over a finite set -/

/-- A one-bit word is determined by whether it is 1. -/
theorem bit_ext {a b : BitVec 1} (h : a = 1#1 ↔ b = 1#1) : a = b := by
  revert a b; decide

/-- The bit of a Boolean is 1 exactly when the Boolean is true. -/
theorem ofBool_eq_one_iff (p : Bool) : BitVec.ofBool p = 1#1 ↔ p = true := by
  cases p <;> decide

/-- The OR of two one-bit words is 1 exactly when one of them is. -/
theorem ori_one_iff {c d : BitVec 1} : IntOp.ori c d = 1#1 ↔ c = 1#1 ∨ d = 1#1 := by
  revert c d; decide

/-- An OR-fold from 0 over a finite set is 1 exactly when some element of the set carries a 1. -/
theorem fold_ori_eq_one {ι : Type*} (S : Finset ι) (x : ι → BitVec 1) :
    S.fold IntOp.ori 0#1 x = 1#1 ↔ ∃ i ∈ S, x i = 1#1 := by
  induction S using Finset.cons_induction with
  | empty =>
    rw [Finset.fold_empty]
    constructor
    · intro h; exact absurd h (by decide)
    · rintro ⟨i, hi, _⟩; exact absurd hi (Finset.notMem_empty i)
  | cons a S ha ih =>
    rw [Finset.fold_cons, ori_one_iff, ih]
    constructor
    · rintro (h | ⟨i, hi, h⟩)
      · exact ⟨a, Finset.mem_cons_self a S, h⟩
      · exact ⟨i, Finset.mem_cons.2 (Or.inr hi), h⟩
    · rintro ⟨i, hi, h⟩
      rcases Finset.mem_cons.1 hi with rfl | hi
      · exact Or.inl h
      · exact Or.inr ⟨i, hi, h⟩

/-! ### A sum of absolute differences of finite values is positive exactly when two values differ -/

/-- With every value finite, max(d, −d) is the real |d|; a finite sum of non-negative reals is positive exactly when a
    term is; and |d| is positive exactly when the two values differ. -/
theorem sum_absdiff_pos_iff {ι : Type*} [Fintype ι] (u v : ι → EReal) (hu : ∀ i, ∃ r : ℝ, u i = (r : EReal))
    (hv : ∀ i, ∃ r : ℝ, v i = (r : EReal)) :
    0 < ∑ i, max (u i - v i) (-(u i - v i)) ↔ ∃ i, u i ≠ v i := by
  choose fu hfu using hu
  choose fv hfv using hv
  have ht : ∀ i, max (u i - v i) (-(u i - v i)) = ((|fu i - fv i| : ℝ) : EReal) := by
    intro i
    rw [hfu i, hfv i, Cert.LibCoe.sub_coe, Cert.LibCoe.neg_coe, Cert.LibCoe.max_coe, abs_eq_max_neg]
  rw [Finset.sum_congr rfl fun i _ => ht i, Cert.LibCoe.sum_coe, EReal.coe_pos,
    Finset.sum_pos_iff_of_nonneg fun i _ => abs_nonneg _]
  constructor
  · rintro ⟨i, _, hi⟩
    refine ⟨i, ?_⟩
    rw [hfu i, hfv i]
    intro e
    rw [EReal.coe_eq_coe_iff.1 e, sub_self, abs_zero] at hi
    exact lt_irrefl _ hi
  · rintro ⟨i, hi⟩
    refine ⟨i, Finset.mem_univ _, abs_pos.2 (sub_ne_zero.2 ?_)⟩
    intro e
    exact hi (by rw [hfu i, hfv i, e])

/-! ### The reference's differs bit at (b, k) -/

/-- The second slice of frames 1..3 reads frame k+1. -/
theorem idx_v17_ix5 (b : Fin 256) (k c : Fin 3) (r w : Fin 112) :
    idx_main_v17 (ix5 b k c r w) = ix5 b k.succ c r w := by
  funext a
  match a with
  | ⟨0, _⟩ => rfl
  | ⟨1, _⟩ => exact Fin.ext (by show 1 + k.val = k.val + 1; omega)
  | ⟨2, _⟩ => rfl
  | ⟨3, _⟩ => rfl
  | ⟨4, _⟩ => rfl

/-- The frame-0 slice, broadcast along the frame axis, reads frame 0 whatever k is. -/
theorem idx_v18_v19_ix5 (b : Fin 256) (k c : Fin 3) (r w : Fin 112) :
    idx_main_v18 (idx_main_v19 (ix5 b k c r w)) = ix5 b (0 : Fin 4) c r w := by
  funext a
  match a with
  | ⟨0, _⟩ => rfl
  | ⟨1, _⟩ => rfl
  | ⟨2, _⟩ => rfl
  | ⟨3, _⟩ => rfl
  | ⟨4, _⟩ => rfl

/-- The reference's comparison at one pixel is 1 exactly when frame k+1 and frame 0 differ there. -/
theorem v20_over_eq_one_iff (x0 : Cert.Spec.Img 256) (b : Fin 256) (k : Fin 3) (p : Fin 3 × Fin 112 × Fin 112) :
    val_main_v20 (F := Ideal) x0 (over b k p) = 1#1
      ↔ x0 (ix5 b k.succ p.1 p.2.1 p.2.2) ≠ x0 (ix5 b (0 : Fin 4) p.1 p.2.1 p.2.2) := by
  unfold over
  rw [val_main_v20_apply, val_main_v17_apply, val_main_v19_apply, val_main_v18_apply, idx_v17_ix5, idx_v18_v19_ix5]
  show BitVec.ofBool (decide (_ ≠ _)) = 1#1 ↔ _
  rw [ofBool_eq_one_iff, decide_eq_true_iff]

/-- The reference's three-axis OR at (b, k) is 1 exactly when some pixel's comparison is. -/
theorem v21_ix2_eq_one_iff (x0 : Cert.Spec.Img 256) (b : Fin 256) (k : Fin 3) :
    val_main_v21 (F := Ideal) x0 (ix2 b k) = 1#1
      ↔ ∃ p : Fin 3 × Fin 112 × Fin 112, val_main_v20 (F := Ideal) x0 (over b k p) = 1#1 := by
  unfold val_main_v21
  rw [Host.reduce_eq_fold, val_main_c_apply, fold_ori_eq_one]
  constructor
  · rintro ⟨i, hi, h⟩
    have hd := (Finset.mem_filter.1 hi).2
    exact ⟨tail3 i, by rw [over_tail3 _ b k i hd]; exact h⟩
  · rintro ⟨p, h⟩
    exact ⟨over b k p, Finset.mem_filter.2 ⟨Finset.mem_univ _, over_drop _ b k p⟩, h⟩

/-! ### The specification's mark against one half -/

/-- The pattern of 0.5 (exponent field 126, fraction 0) denotes one half. -/
theorem ofBits_half : Ideal.ofBits .f32 0x3F000000#32 = (((1 : ℝ) / 2 : ℝ) : EReal) := by
  simp [Ideal.ofBits, Ideal.ieee, -EReal.coe_mul]; norm_num

/-- The comparison against one half at (b, k). -/
theorem aboveHalf_ix2 (marks : Cert.Spec.Pairs 256) (b : Fin 256) (k : Fin 3) :
    Cert.Tail.aboveHalf (F := Ideal) marks (ix2 b k)
      = Ideal.cmp .ogt (marks (ix2 b k)) (Ideal.ofBits .f32 0x3F000000#32) := by
  unfold Cert.Tail.aboveHalf Cert.Tail.half
  rw [cmpf_apply, broadcastInDim_apply _ Cert.KernelIdeal.Gen.bcast_S_S256x3 _ (ix2 b k) ix0 (fun a => a.elim0)]
  rfl

/-- A one-or-zero mark is above one half exactly when it is the one. -/
theorem mark_above_half_iff (P : Prop) [Decidable P] :
    Ideal.cmp .ogt (if P then (1 : EReal) else 0) (Ideal.ofBits .f32 0x3F000000#32) = 1#1 ↔ P := by
  rw [ofBits_half]
  by_cases h : P
  · rw [if_pos h, ← EReal.coe_one, Cert.LibCoe.cmp_ogt_coe, decide_eq_true (by norm_num)]
    exact ⟨fun _ => h, fun _ => rfl⟩
  · rw [if_neg h, ← EReal.coe_zero, Cert.LibCoe.cmp_ogt_coe, decide_eq_false (by norm_num)]
    exact ⟨fun e => absurd e (by decide), fun hp => absurd hp h⟩

/-- Over a finite image the summed absolute difference against frame 0 is positive exactly when some pixel differs. -/
theorem absDiff_pos_iff (x0 : Cert.Spec.Img 256) (hfin : ∀ i, ∃ r : ℝ, x0 i = (r : EReal)) (b : Fin 256) (k : Fin 3) :
    0 < Cert.Spec.absDiff x0 b k
      ↔ ∃ p : Fin 3 × Fin 112 × Fin 112, x0 (ix5 b k.succ p.1 p.2.1 p.2.2) ≠ x0 (ix5 b (0 : Fin 4) p.1 p.2.1 p.2.2) := by
  have e : Cert.Spec.absDiff x0 b k = ∑ p : Fin 3 × Fin 112 × Fin 112,
      max (x0 (ix5 b k.succ p.1 p.2.1 p.2.2) - x0 (ix5 b (0 : Fin 4) p.1 p.2.1 p.2.2))
        (-(x0 (ix5 b k.succ p.1 p.2.1 p.2.2) - x0 (ix5 b (0 : Fin 4) p.1 p.2.1 p.2.2))) := by
    unfold Cert.Spec.absDiff Cert.Spec.firstDiff
    rw [Fintype.sum_prod_type]
    refine Finset.sum_congr rfl fun c _ => ?_
    rw [Fintype.sum_prod_type]
  rw [e]
  exact sum_absdiff_pos_iff _ _ (fun p => hfin _) (fun p => hfin _)

theorem differs_ref (x0 : Cert.Spec.Img 256) (hfin : ∀ i, ∃ r : ℝ, x0 i = (r : EReal)) :
    val_main_v21 (F := Ideal) x0 = Cert.Tail.aboveHalf (F := Ideal) (Cert.Spec.differsArr x0) := by
  funext j
  obtain ⟨b, k, rfl⟩ : ∃ b k, j = ix2 b k := ⟨j 0, j 1, eq_ix2 j⟩
  refine bit_ext ?_
  rw [v21_ix2_eq_one_iff, aboveHalf_ix2]
  show _ ↔ Ideal.cmp .ogt (if 0 < Cert.Spec.absDiff x0 b k then (1 : EReal) else 0) _ = 1#1
  rw [mark_above_half_iff, absDiff_pos_iff x0 hfin b k]
  exact exists_congr fun p => v20_over_eq_one_iff x0 b k p

end Cert.ReferenceIdeal.Image

end
-- ==== Proof.Finite.lean ====
/-
  Under the precondition every entry of the image array is a real number.

  The precondition is the conjunction of three "all entries are below +∞ in absolute value" tests, one per argument,
  each an and-reduction of a comparison to a single bit. The conjunction being one, the image's reduction is one, so
  every comparison bit is one: |x| < +∞ at every entry, the absolute value read as max(x, −x). An extended real with
  max(x, −x) < ⊤ is neither ⊤ nor ⊥, hence a real.
-/
import proofs.«173899_j43542378447385_1_alg».proof.Defs
import proofs.«173899_j43542378447385_1_alg».proof.Proof.Gen.Pre_finite_inputs
import proofs.«173899_j43542378447385_1_alg».proof.Proof.Gen.KernelIdeal
import Idealize.ShloMosaic.Lib.ReduceAll
import Idealize.ShloMosaic.Lib.ValueIdx
import Idealize.ShloMosaic.Lib.Affine

noncomputable section

namespace Cert.Finite

open Cert.KernelIdeal Idealize.ShloMosaic Idealize.ShloMosaic.TcCoe Idealize.SL.Sem

/-- The scalar shape has one index. -/
instance : Subsingleton Cert.Pre_finite_inputs.S_.Idx := ⟨fun a b => funext fun d => d.elim0⟩

/-- An extended real whose absolute value, read as max(x, −x), is below the pattern of +∞ is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < ⊤ := by
    by_contra hn
    simp only [Ideal.cmp, hn, decide_false] at h
    exact absurd h (by decide)
  induction x using EReal.rec with
  | bot => simp at hlt
  | coe r => exact ⟨r, rfl⟩
  | top => simp at hlt

theorem finite_img (m : (ℓ : Loc nD τ sig) → Buf (Elt Ideal) ℓ)
    (h : Cert.Pre_KernelIdeal (hPre_finite_inputs := Cert.Pre_finite_inputs.Gen.facts) m) (c : Dev nD) :
    ∀ i, ∃ r : ℝ, m ((c.tc : Thread nD τ).loc main_arg0) i = (r : EReal) := by
  intro i
  have h0 := congrFun (h c) ValueIdx.ix0
  dsimp only [Cert.Pre_finite_inputs.fn] at h0
  have h1 := (IntOp.andi_eq_one.1 ((IntOp.andi_eq_one.1 h0).1)).1
  have h2 := Host.reduce_andi_all _ _ _ _ _ h1 i
  exact real_of_abs_lt _ h2

end Cert.Finite

end
-- ==== Proof.lean ====
/-
  The kernel streams the image array through one region, 8 batch rows at a time, and leaves two arrays: for each batch
  row b and frame pair k the frame distance sqrt(Σ (x[b,k+1] − x[b,k])²) + ε, and a mark that is 1 where
  Σ |x[b,k+1] − x[b,0]| is positive and 0 where it is not; the host lines after the region compare the marks against one
  half and go on exactly as the reference does. The reference takes the same sum of squares as ONE sum over channel,
  row and column (the kernel takes it axis by axis: the same number, addition on the extended reals being commutative
  and associative), and marks a frame pair where SOME pixel of frame k+1 differs from frame 0. Over finite inputs a sum
  of absolute values is positive exactly when one of them is not zero, so the two masks agree; that is the one place the
  precondition is used. From there on both programs apply the same host arithmetic to equal values.

  The three frames: each kernel program's run is the region's launch followed by the host lines, which write no
  argument; the reference's is its straight run.
-/
import proofs.«173899_j43542378447385_1_alg».proof.Defs
import proofs.«173899_j43542378447385_1_alg».proof.Proof.Gen.Kernel
import proofs.«173899_j43542378447385_1_alg».proof.Proof.Gen.KernelIdeal
import proofs.«173899_j43542378447385_1_alg».proof.Proof.Gen.ReferenceIdeal
import proofs.«173899_j43542378447385_1_alg».proof.Proof.Gen.Pre_finite_inputs
import proofs.«173899_j43542378447385_1_alg».proof.Proof.Gen.ReferenceIdeal.Run
import proofs.«173899_j43542378447385_1_alg».proof.Proof.Gen.ReferenceIdeal.Read
import proofs.«173899_j43542378447385_1_alg».proof.Proof.RegionIdeal
import proofs.«173899_j43542378447385_1_alg».proof.Proof.RegionWords
import proofs.«173899_j43542378447385_1_alg».proof.Proof.BlockValues
import proofs.«173899_j43542378447385_1_alg».proof.Proof.KernelArrays
import proofs.«173899_j43542378447385_1_alg».proof.Proof.TailKernel
import proofs.«173899_j43542378447385_1_alg».proof.Proof.TailRef
import proofs.«173899_j43542378447385_1_alg».proof.Proof.RefImage
import proofs.«173899_j43542378447385_1_alg».proof.Proof.Finite

noncomputable section

namespace Cert.Proof

open Idealize.ShloMosaic Idealize.ShloMosaic.TcCoe Idealize.SL.Sem

/-- The mean penalty as a function of the three arguments: the shared host arithmetic on the specification's frame
    distances and on its marks compared against one half. -/
def penaltyOf (x0 : Cert.Spec.Img 256) (x1 : (⟨Cert.KernelIdeal.S256x4x512, .f32⟩ : BufTy).Contents (Elt Ideal))
    (x2 : (⟨Cert.KernelIdeal.S256x4x1, .f32⟩ : BufTy).Contents (Elt Ideal)) :
    (⟨Cert.KernelIdeal.S_, .f32⟩ : BufTy).Contents (Elt Ideal) :=
  Cert.Tail.penalty (F := Ideal) (Cert.Spec.distArr x0) (Cert.Tail.aboveHalf (F := Ideal) (Cert.Spec.differsArr x0)) x1 x2

section KernelSide
open Cert.KernelIdeal Cert.KernelIdeal.Gen Cert.KernelIdeal.Region

/-- The idealized kernel program's run with its results named: the region's arrays are the specification's, the
    later lines the shared arithmetic, the arguments untouched. -/
theorem kernel_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42)
          = penaltyOf (m ((c.tc : Thread nD τ).loc main_arg0)) (m ((c.tc : Thread nD τ).loc main_arg1)) (m ((c.tc : Thread nD τ).loc main_arg2))
      ∧ r.2.mem ((c.tc : Thread nD τ).loc main_v39) = Cert.Tail.weights (F := Ideal) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v42 (Pipeline.mem_restRefs_of main_v42 (by decide) (by decide))).trans
        ((Cert.KernelIdeal.TailRun.tail_penalty m c).trans (by
          rw [Cert.KernelIdeal.Arrays.arr_dist, Cert.KernelIdeal.Arrays.arr_differs]; rfl)),
     ((h c).2 main_v39 (Pipeline.mem_restRefs_of main_v39 (by decide) (by decide))).trans
        (Cert.KernelIdeal.TailRun.tail_weights m c),
     args_kept m (dats m) (A_eq m) r h c⟩) (run_main (F := Ideal) m ρ)

end KernelSide

theorem frame_words : Cert.frame_Kernel := fun m ρ _ => Cert.Kernel.Region.frame m ρ
theorem frame_ideal : Cert.frame_KernelIdeal := fun m ρ _ => Cert.KernelIdeal.Region.frame m ρ
theorem frame_reference : Cert.frame_ReferenceIdeal := fun m ρ _ =>
  (θ_run Cert.ReferenceIdeal.defs _ _).mono (fun _ h c => (h c).2.2) (Cert.ReferenceIdeal.Value.run (F := Ideal) m ρ)

/-- Both idealized programs end at the same two results: the reference's stages are the shared arithmetic on its own
    image reductions, which over the finite image are the specification's. -/
theorem algebraic : Cert.algebraic_KernelIdeal_ReferenceIdeal := by
  intro m ρ m' ρ' hpre hagree
  refine ⟨fun c => penaltyOf (m ((c.tc : Thread _ _).loc Cert.KernelIdeal.main_arg0)) (m ((c.tc : Thread _ _).loc Cert.KernelIdeal.main_arg1))
      (m ((c.tc : Thread _ _).loc Cert.KernelIdeal.main_arg2)),
    fun c => Cert.Tail.weights (F := Ideal) (m ((c.tc : Thread _ _).loc Cert.KernelIdeal.main_arg2)), kernel_values m ρ, ?_⟩
  refine (θ_run Cert.ReferenceIdeal.defs _ _).mono (fun r h c => ?_) (Cert.ReferenceIdeal.Value.run (F := Ideal) m' ρ')
  obtain ⟨h52, h49, h0, h1, h2⟩ := h c
  refine ⟨?_, ?_, h0, h1, h2⟩
  · rw [h52, (hagree c).1, (hagree c).2.1, (hagree c).2.2, Cert.ReferenceIdeal.Read.val_main_v52_eq,
      Cert.ReferenceIdeal.TailRead.ref_penalty, Cert.ReferenceIdeal.Image.dist_ref,
      Cert.ReferenceIdeal.Image.differs_ref _ (Cert.Finite.finite_img m hpre c)]
    rfl
  · rw [h49, (hagree c).2.2, Cert.ReferenceIdeal.Read.val_main_v49_eq, Cert.ReferenceIdeal.TailRead.ref_weights]

theorem claim : Cert.Claim :=
  ⟨Cert.Kernel.Gen.facts, Cert.KernelIdeal.Gen.facts, Cert.ReferenceIdeal.Gen.facts, Cert.Pre_finite_inputs.Gen.facts,
    frame_words, frame_ideal, frame_reference, trivial, algebraic⟩

end Cert.Proof

end
